-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x270x2048 : Shape := ⟨3, ![128, 270, 2048]⟩
abbrev S128 : Shape := ⟨1, ![128]⟩
abbrev S124x270x270 : Shape := ⟨3, ![124, 270, 270]⟩
abbrev S124x270 : Shape := ⟨2, ![124, 270]⟩
abbrev S_ : Shape := ⟨0, ![]⟩

class Facts : Prop where
  bcast_S_S128x270x2048 : S_.BroadcastsInDim S128x270x2048 (![] : Fin 0 → Fin S128x270x2048.rank)
  reducesTo_S128x270x2048_S_d0_1_2 : S128x270x2048.ReducesTo [0, 1, 2] S_
  h_S_ : 0 < S_.numel
  bcast_S_S124x270x270 : S_.BroadcastsInDim S124x270x270 (![] : Fin 0 → Fin S124x270x270.rank)
  reducesTo_S124x270x270_S_d0_1_2 : S124x270x270.ReducesTo [0, 1, 2] S_
  bcast_S_S124x270 : S_.BroadcastsInDim S124x270 (![] : Fin 0 → Fin S124x270.rank)
  reducesTo_S124x270_S_d0_1 : S124x270.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg1 : IVec S128 32) (main_v13 : IVec S_ 1) (main_v15 : IVec S128 1) (main_c_5 : IVec S_ 1) : IVec S_ 1 :=
  let main_v16 : IVec S_ 1 := (fun x v => Host.reduce IntOp.andi x v reducesTo_S128_S_d0 h_S_) main_v15 main_c_5
  let main_v17 : IVec S_ 1 := andi main_v13 main_v16
  let main_c_6 : IVec S_ 32 := constantI S_ 32 124#32
  let main_v18 : IVec S128 32 := broadcastInDim S128 ![] bcast_S_S128 main_c_6
  let main_v19 : IVec S128 1 := cmpi .slt main_arg1 main_v18
  let main_c_7 : IVec S_ 1 := constantI S_ 1 1#1
  let main_v20 : IVec S_ 1 := (fun x v => Host.reduce IntOp.andi x v reducesTo_S128_S_d0 h_S_) main_v19 main_c_7
  let main_v21 : IVec S_ 1 := andi main_v17 main_v20
  main_v21

def fn {F : FTy → Type} [FloatOps F] (main_arg0 : FVec F S128x270x2048 .f32) (main_arg1 : IVec S128 32) (main_arg2 : FVec F S124x270x270 .f32) (main_arg3 : FVec F S124x270 .f32) : IVec S_ 1 :=
  let main_v0 : FVec F S128x270x2048 .f32 := Host.absf main_arg0
  let main_cst : FVec F S_ .f32 := constant S_ .f32 0x7F800000#32
  let main_v1 : FVec F S128x270x2048 .f32 := broadcastInDim S128x270x2048 ![] bcast_S_S128x270x2048 main_cst
  let main_v2 : IVec S128x270x2048 1 := cmpf .olt main_v0 main_v1
  let main_c : IVec S_ 1 := constantI S_ 1 1#1
  let main_v3 : IVec S_ 1 := (fun x v => Host.reduce IntOp.andi x v reducesTo_S128x270x2048_S_d0_1_2 h_S_) main_v2 main_c
  let main_v4 : FVec F S124x270x270 .f32 := Host.absf main_arg2
  let main_cst_0 : FVec F S_ .f32 := constant S_ .f32 0x7F800000#32
  let main_v5 : FVec F S124x270x270 .f32 := broadcastInDim S124x270x270 ![] bcast_S_S124x270x270 main_cst_0
  let main_v6 : IVec S124x270x270 1 := cmpf .olt main_v4 main_v5
  let main_c_1 : IVec S_ 1 := constantI S_ 1 1#1
  let main_v7 : IVec S_ 1 := (fun x v => Host.reduce IntOp.andi x v reducesTo_S124x270x270_S_d0_1_2 h_S_) main_v6 main_c_1
  let main_v8 : IVec S_ 1 := andi main_v3 main_v7
  let main_v9 : FVec F S124x270 .f32 := Host.absf main_arg3
  let main_cst_2 : FVec F S_ .f32 := constant S_ .f32 0x7F800000#32
  let main_v10 : FVec F S124x270 .f32 := broadcastInDim S124x270 ![] bcast_S_S124x270 main_cst_2
  let main_v11 : IVec S124x270 1 := cmpf .olt main_v9 main_v10
  let main_c_3 : IVec S_ 1 := constantI S_ 1 1#1
  let main_v12 : IVec S_ 1 := (fun x v => Host.reduce IntOp.andi x v reducesTo_S124x270_S_d0_1 h_S_) main_v11 main_c_3
  let main_v13 : IVec S_ 1 := andi main_v8 main_v12
  let main_c_4 : IVec S_ 32 := constantI S_ 32 0#32
  let main_v14 : IVec S128 32 := broadcastInDim S128 ![] bcast_S_S128 main_c_4
  let main_v15 : IVec S128 1 := cmpi .sge main_arg1 main_v14
  let main_c_5 : IVec S_ 1 := constantI S_ 1 1#1
  fn_part1 (F := F) main_arg1 main_v13 main_v15 main_c_5
-- ==== Kernel.lean ====
abbrev S128x270x2048 : Shape := ⟨3, ![128, 270, 2048]⟩
abbrev S128 : Shape := ⟨1, ![128]⟩
abbrev S124x270x270 : Shape := ⟨3, ![124, 270, 270]⟩
abbrev S124x270 : Shape := ⟨2, ![124, 270]⟩
abbrev S_ : Shape := ⟨0, ![]⟩
abbrev S124x270x1 : Shape := ⟨3, ![124, 270, 1]⟩
abbrev S2x270x2048 : Shape := ⟨3, ![2, 270, 2048]⟩
abbrev S1x270x270 : Shape := ⟨3, ![1, 270, 270]⟩
abbrev S1 : Shape := ⟨1, ![1]⟩
abbrev S1x270x1 : Shape := ⟨3, ![1, 270, 1]⟩
abbrev S1x270x2048 : Shape := ⟨3, ![1, 270, 2048]⟩
abbrev S270x2048 : Shape := ⟨2, ![270, 2048]⟩
abbrev S270x270 : Shape := ⟨2, ![270, 270]⟩
abbrev S270x1 : Shape := ⟨2, ![270, 1]⟩

abbrev nBuf : Space → Nat
  | .hbm => 13
  | .vmem => 12
  | .smem => 1
  | _ => 0

abbrev bufTy : (tb : Table) → Fin (tcTables nBuf tb) → BufTy
  | .hbm, ⟨0, _⟩ => ⟨S128x270x2048, .f32⟩
  | .hbm, ⟨1, _⟩ => ⟨S128, .i32⟩
  | .hbm, ⟨2, _⟩ => ⟨S124x270x270, .f32⟩
  | .hbm, ⟨3, _⟩ => ⟨S124x270, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S128, .i32⟩
  | .hbm, ⟨8, _⟩ => ⟨S128, .i32⟩
  | .hbm, ⟨9, _⟩ => ⟨S_, .i32⟩
  | .hbm, ⟨10, _⟩ => ⟨S128, .i32⟩
  | .hbm, ⟨11, _⟩ => ⟨S124x270x1, .f32⟩
  | .hbm, ⟨12, _⟩ => ⟨S128x270x2048, .f32⟩
  | .local _ .vmem, ⟨0, _⟩ => ⟨S2x270x2048, .f32⟩
  | .local _ .vmem, ⟨1, _⟩ => ⟨S2x270x2048, .f32⟩
  | .local _ .vmem, ⟨2, _⟩ => ⟨S1x270x270, .f32⟩
  | .local _ .vmem, ⟨3, _⟩ => ⟨S1x270x270, .f32⟩
  | .local _ .vmem, ⟨4, _⟩ => ⟨S1x270x270, .f32⟩
  | .local _ .vmem, ⟨5, _⟩ => ⟨S1x270x270, .f32⟩
  | .local _ .vmem, ⟨6, _⟩ => ⟨S1x270x1, .f32⟩
  | .local _ .vmem, ⟨7, _⟩ => ⟨S1x270x1, .f32⟩
  | .local _ .vmem, ⟨8, _⟩ => ⟨S1x270x1, .f32⟩
  | .local _ .vmem, ⟨9, _⟩ => ⟨S1x270x1, .f32⟩
  | .local _ .vmem, ⟨10, _⟩ => ⟨S2x270x2048, .f32⟩
  | .local _ .vmem, ⟨11, _⟩ => ⟨S2x270x2048, .f32⟩
  | .local _ .smem, ⟨0, _⟩ => ⟨S128, .i32⟩
  | _, _ => ⟨S128x270x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_v2 : Ref sig .tc := ⟨.hbm, 12, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c2_i32 : BitVec 32 := 2#32
  let arg0 : BitVec 32 := BitVec.ofNat 32 (i 0).val
  let v0 : BitVec 32 := Scalar.muli c2_i32 arg0
  let v1 : Index := Scalar.indexCast v0
  ![v1.toNat]
def k0_off2 (i : grid0.Coords) : Fin 1 → Nat :=
  let c2_i32 : BitVec 32 := 2#32
  let arg0 : BitVec 32 := BitVec.ofNat 32 (i 0).val
  let v0 : BitVec 32 := Scalar.muli c2_i32 arg0
  let c1_i32 : BitVec 32 := 1#32
  let v1 : BitVec 32 := Scalar.addi v0 c1_i32
  let v2 : Index := Scalar.indexCast v1
  ![v2.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let v1 : Index := Scalar.indexCast v0
  let v2 : BitVec 32 := pf.at 0 (Rect.unit (s := S128) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_2 (k0_off2_inb : ∀ i : grid0.Coords, ∀ a, (k0_off2 i) a + S1.size a ≤ S128.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 0 (Rect.unit (s := S128) ![v2.toNat] S1.size (k0_off2_inb i)) numel1_S1
  let c0_i32 : BitVec 32 := 0#32
  let c0_i32_0 : BitVec 32 := 0#32
  let c0_i32_1 : BitVec 32 := 0#32
  ![v3.toNat, c0_i32.toNat, c0_i32_0.toNat]

def cc0_transform_3 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let v1 : Index := Scalar.indexCast v0
  let v2 : BitVec 32 := pf.at 0 (Rect.unit (s := S128) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_4 (k0_off2_inb : ∀ i : grid0.Coords, ∀ a, (k0_off2 i) a + S1.size a ≤ S128.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 0 (Rect.unit (s := S128) ![v2.toNat] S1.size (k0_off2_inb i)) numel1_S1
  let c0_i32 : BitVec 32 := 0#32
  let c0_i32_0 : BitVec 32 := 0#32
  let c0_i32_1 : BitVec 32 := 0#32
  ![v3.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x270x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x270x270 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x270x270 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x270x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x270x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x270x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S128 : S_.BroadcastsInDim S128 (![] : Fin 0 → Fin S128.rank)
  bcast_S124x270_S124x270x1_0_1 : S124x270.BroadcastsInDim S124x270x1 (![0, 1] : Fin 2 → Fin S124x270x1.rank)
  numel1_S1 : S1.numel = 1
  inb_S2x270x2048_S1x270x2048_0_0_0 : ∀ a, (![0, 0, 0] : Fin 3 → Nat) a + S1x270x2048.size a ≤ S2x270x2048.size a
  h_S1x270x2048 : 0 < S1x270x2048.numel
  shapeCasts_S1x270x2048_S270x2048 : S1x270x2048.ShapeCasts S270x2048
  bitsLt_bf16_f32 : FTy.bits .bf16 < FTy.bits .f32
  inb_S2x270x2048_S1x270x2048_1_0_0 : ∀ a, (![1, 0, 0] : Fin 3 → Nat) a + S1x270x2048.size a ≤ S2x270x2048.size a
  inb_S1x270x270_S1x270x270_0_0_0 : ∀ a, (![0, 0, 0] : Fin 3 → Nat) a + S1x270x270.size a ≤ S1x270x270.size a
  h_S1x270x270 : 0 < S1x270x270.numel
  shapeCasts_S1x270x270_S270x270 : S1x270x270.ShapeCasts S270x270
  inb_S1x270x1_S1x270x1_0_0_0 : ∀ a, (![0, 0, 0] : Fin 3 → Nat) a + S1x270x1.size a ≤ S1x270x1.size a
  h_S1x270x1 : 0 < S1x270x1.numel
  shapeCasts_S1x270x1_S270x1 : S1x270x1.ShapeCasts S270x1
  broadcasts_S270x1_S270x2048 : S270x1.Broadcasts S270x2048
  shapeCasts_S270x2048_S1x270x2048 : S270x2048.ShapeCasts S1x270x2048
  dot_S270x270_S270x2048_S270x2048_1_0_0_1_n_n_wf : DotDims.WF S270x270 S270x2048 S270x2048 [1] [0] [0] [1] [] []
  hrank0 : 0 < grid0.rank
  k0_off1_inb : ∀ i : grid0.Coords, ∀ a, (k0_off1 i) a + S1.size a ≤ S128.size a
  k0_off2_inb : ∀ i : grid0.Coords, ∀ a, (k0_off2 i) a + S1.size a ≤ S128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x270x2048.size a ≤ S128x270x2048.size a
  hwx0_0 : ∀ i : grid0.Coords, EltTy.bits .f32 = 32 ∨ (Rect.block (s := S128x270x2048) S2x270x2048.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off2_inb numel1_S1 pf i = cc0_transform_2 k0_off2_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off2_inb numel1_S1 pf i = cc0_transform_4 k0_off2_inb numel1_S1 pf i'
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x270x2048.size a ≤ S128x270x2048.size a
  hwx0_5 : ∀ i : grid0.Coords, EltTy.bits .f32 = 32 ∨ (Rect.block (s := S128x270x2048) S2x270x2048.size (cc0_transform_5 i) (hinb0_5 i)).WholeWords (EltTy.packing .f32)

variable [Facts₀]

def dot_S270x270_S270x2048_S270x2048_1_0_0_1_n_n : DotDims S270x270 S270x2048 S270x2048 where
  lhsContracting := [1]
  rhsContracting := [0]
  lhsNonContracting := [0]
  rhsNonContracting := [1]
  lhsBatch := []
  rhsBatch := []
  wf := dot_S270x270_S270x2048_S270x2048_1_0_0_1_n_n_wf

abbrev spec0_0 : Pipeline.WinSpec sig grid0.rank :=
  Pipeline.WinSpec.ofSpec (Memref.whole main_arg0) S2x270x2048.size reads0_0 false false 2 stage0_0 sem0_0 nbuf0_0 hstage0_0

abbrev spec0_1 : Pipeline.WinSpec sig grid0.rank :=
  Pipeline.WinSpec.ofSpec (Memref.whole main_arg2) S1x270x270.size reads0_1 false false 2 stage0_1 sem0_1 nbuf0_1 hstage0_1

abbrev spec0_2 : Pipeline.WinSpec sig grid0.rank :=
  Pipeline.WinSpec.ofSpec (Memref.whole main_arg2) S1x270x270.size reads0_2 false false 2 stage0_2 sem0_2 nbuf0_2 hstage0_2

abbrev spec0_3 : Pipeline.WinSpec sig grid0.rank :=
  Pipeline.WinSpec.ofSpec (Memref.whole main_v1) S1x270x1.size reads0_3 false false 2 stage0_3 sem0_3 nbuf0_3 hstage0_3

abbrev spec0_4 : Pipeline.WinSpec sig grid0.rank :=
  Pipeline.WinSpec.ofSpec (Memref.whole main_v1) S1x270x1.size reads0_4 false false 2 stage0_4 sem0_4 nbuf0_4 hstage0_4

abbrev spec0_5 : Pipeline.WinSpec sig grid0.rank :=
  Pipeline.WinSpec.ofSpec (Memref.whole main_v2) S2x270x2048.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 k0_off1_inb numel1_S1 pf | 2 => cc0_transform_2 k0_off2_inb numel1_S1 pf | 3 => cc0_transform_3 k0_off1_inb numel1_S1 pf | 4 => cc0_transform_4 k0_off2_inb numel1_S1 pf | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 pf | 4 => hreads0_4 pf | 5 => hreads0_5 | ⟨_ + 6, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x270x270.size a ≤ S124x270x270.size a), EltTy.bits .f32 = 32 ∨ (Rect.block (s := S124x270x270) S1x270x270.size (cc0_transform_1 k0_off1_inb numel1_S1 pf i) h).WholeWords (EltTy.packing .f32)) ∧
  (∀ i : grid0.Coords, ∃ h : (∀ a, (cc0_transform_2 k0_off2_inb numel1_S1 pf i a + 1) * S1x270x270.size a ≤ S124x270x270.size a), EltTy.bits .f32 = 32 ∨ (Rect.block (s := S124x270x270) S1x270x270.size (cc0_transform_2 k0_off2_inb numel1_S1 pf i) h).WholeWords (EltTy.packing .f32)) ∧
  (∀ i : grid0.Coords, ∃ h : (∀ a, (cc0_transform_3 k0_off1_inb numel1_S1 pf i a + 1) * S1x270x1.size a ≤ S124x270x1.size a), EltTy.bits .f32 = 32 ∨ (Rect.block (s := S124x270x1) S1x270x1.size (cc0_transform_3 k0_off1_inb numel1_S1 pf i) h).WholeWords (EltTy.packing .f32)) ∧
  (∀ i : grid0.Coords, ∃ h : (∀ a, (cc0_transform_4 k0_off2_inb numel1_S1 pf i a + 1) * S1x270x1.size a ≤ S124x270x1.size a), EltTy.bits .f32 = 32 ∨ (Rect.block (s := S124x270x1) S1x270x1.size (cc0_transform_4 k0_off2_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2.1 i).elim fun h _ => h a | 3 => fun i a => (hok.2.2.1 i).elim fun h _ => h a | 4 => fun i a => (hok.2.2.2 i).elim fun h _ => h a | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2.1 i).elim fun _ h => h | 3 => fun i => (hok.2.2.1 i).elim fun _ h => h | 4 => fun i => (hok.2.2.2 i).elim fun _ h => h | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S128x270x2048 : Shape := ⟨3, ![128, 270, 2048]⟩
abbrev S128 : Shape := ⟨1, ![128]⟩
abbrev S124x270x270 : Shape := ⟨3, ![124, 270, 270]⟩
abbrev S124x270 : Shape := ⟨2, ![124, 270]⟩
abbrev S_ : Shape := ⟨0, ![]⟩
abbrev S128x1 : Shape := ⟨2, ![128, 1]⟩
abbrev S128x270x270 : Shape := ⟨3, ![128, 270, 270]⟩
abbrev S128x270 : Shape := ⟨2, ![128, 270]⟩
abbrev S128x270x1 : Shape := ⟨3, ![128, 270, 1]⟩

abbrev nBuf : Space → Nat
  | .hbm => 26
  | .vmem => 0
  | .smem => 0
  | _ => 0

abbrev bufTy : (tb : Table) → Fin (tcTables nBuf tb) → BufTy
  | .hbm, ⟨0, _⟩ => ⟨S128x270x2048, .f32⟩
  | .hbm, ⟨1, _⟩ => ⟨S128, .i32⟩
  | .hbm, ⟨2, _⟩ => ⟨S124x270x270, .f32⟩
  | .hbm, ⟨3, _⟩ => ⟨S124x270, .f32⟩
  | .hbm, ⟨4, _⟩ => ⟨S_, .i32⟩
  | .hbm, ⟨5, _⟩ => ⟨S128, .i32⟩
  | .hbm, ⟨6, _⟩ => ⟨S128, .i1⟩
  | .hbm, ⟨7, _⟩ => ⟨S_, .i32⟩
  | .hbm, ⟨8, _⟩ => ⟨S128, .i32⟩
  | .hbm, ⟨9, _⟩ => ⟨S128, .i32⟩
  | .hbm, ⟨10, _⟩ => ⟨S128, .i32⟩
  | .hbm, ⟨11, _⟩ => ⟨S128x1, .i32⟩
  | .hbm, ⟨12, _⟩ => ⟨S128x270x270, .f32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S_, .i32⟩
  | .hbm, ⟨17, _⟩ => ⟨S128, .i32⟩
  | .hbm, ⟨18, _⟩ => ⟨S128, .i32⟩
  | .hbm, ⟨19, _⟩ => ⟨S128, .i32⟩
  | .hbm, ⟨20, _⟩ => ⟨S128x1, .i32⟩
  | .hbm, ⟨21, _⟩ => ⟨S128x270, .f32⟩
  | .hbm, ⟨22, _⟩ => ⟨S128x270x2048, .f32⟩
  | .hbm, ⟨23, _⟩ => ⟨S128x270x1, .f32⟩
  | .hbm, ⟨24, _⟩ => ⟨S128x270x2048, .f32⟩
  | .hbm, ⟨25, _⟩ => ⟨S128x270x2048, .f32⟩
  | _, _ => ⟨S128x270x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S128_S128x1_0 : S128.BroadcastsInDim S128x1 (![0] : Fin 1 → Fin S128x1.rank)
  bcast_S128x270_S128x270x1_0_1 : S128x270.BroadcastsInDim S128x270x1 (![0, 1] : Fin 2 → Fin S128x270x1.rank)
  bcast_S128x270x1_S128x270x2048_0_1_2 : S128x270x1.BroadcastsInDim S128x270x2048 (![0, 1, 2] : Fin 3 → Fin S128x270x2048.rank)
  gather_S124x270x270_S128x1_S128x270x270_12_0_n_n_0_1_1270270_wf : GatherDims.WF S124x270x270 S128x1 S128x270x270 [1, 2] [0] [] [0] [] 1 ![1, 270, 270]
  gather_S124x270_S128x1_S128x270_1_0_n_n_0_1_1270_wf : GatherDims.WF S124x270 S128x1 S128x270 [1] [0] [] [0] [] 1 ![1, 270]
  dot_S128x270x270_S128x270x2048_S128x270x2048_2_1_1_2_0_0_wf : DotDims.WF S128x270x270 S128x270x2048 S128x270x2048 [2] [1] [1] [2] [0] [0]

variable [Facts₀]

def gather_S124x270x270_S128x1_S128x270x270_12_0_n_n_0_1_1270270 : GatherDims S124x270x270 S128x1 S128x270x270 where
  offsetDims := [1, 2]
  collapsedSliceDims := [0]
  operandBatchingDims := []
  startIndicesBatchingDims := []
  startIndexMap := [0]
  indexVectorDim := 1
  sliceSizes := ![1, 270, 270]
  wf := gather_S124x270x270_S128x1_S128x270x270_12_0_n_n_0_1_1270270_wf
def gather_S124x270_S128x1_S128x270_1_0_n_n_0_1_1270 : GatherDims S124x270 S128x1 S128x270 where
  offsetDims := [1]
  collapsedSliceDims := [0]
  operandBatchingDims := []
  startIndicesBatchingDims := []
  startIndexMap := [0]
  indexVectorDim := 1
  sliceSizes := ![1, 270]
  wf := gather_S124x270_S128x1_S128x270_1_0_n_n_0_1_1270_wf
def dot_S128x270x270_S128x270x2048_S128x270x2048_2_1_1_2_0_0 : DotDims S128x270x270 S128x270x2048 S128x270x2048 where
  lhsContracting := [2]
  rhsContracting := [1]
  lhsNonContracting := [1]
  rhsNonContracting := [2]
  lhsBatch := [0]
  rhsBatch := [0]
  wf := dot_S128x270x270_S128x270x2048_S128x270x2048_2_1_1_2_0_0_wf

class Facts : Prop extends Facts₀ where

variable [Facts]
-- ==== Proof.BitsHost.lean ====
/-
  The host side of the kernel's program before its one launch: the routing words are clamped into
  the experts' range, the bias table is given a trailing unit axis, and nothing else is touched.

  `V m c b` is what buffer `b` of core `c` holds when the launch is reached from the memory `m`.
  The argument arrays are as launched; the prefetched table holds, word for word,
  `min 123 (max 0 s)` of the routing words `s` (signed); the bias operand is `b` with every entry
  `b[e, c]` placed at `[e, c, 0]`.

  Because every table word lies in `0 .. 123`, each block an index map selects through the table lies
  inside its array: that is the pipeline's side condition `ok0` of the table's contents, and it
  holds for EVERY input (the clamp is what makes it so; no hypothesis on the routing words is used).
-/
import proofs.«429278_j10419590660547_3_alg».proof.Proof.Gen.Kernel.Launch
import proofs.«429278_j10419590660547_3_alg».proof.Proof.Gen.Kernel.Skeleton
import Idealize.ShloMosaic.Lib.Pipeline.Frame
import Idealize.ShloMosaic.Lib.Pipeline.FrameBody
import Idealize.ShloMosaic.Lib.StableHlo.Run
import Idealize.ShloMosaic.Lib.ValueIdx
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The buffers when the launch is reached -/

/-- Core `c`'s buffers when the launch is reached: the launch memory after the host operations before it. -/
abbrev V (c : Dev nD) (b : Ref sig .tc) : Buf (Elt F) ((c : Thread nD τ).loc b) :=
  StableHlo.after (List.flatten [hostOps0, hostOps0_1, hostOps0_2]) (fun b => m (c, b)) b

/-- No host operation allocates: each writes a buffer the program already holds. -/
private theorem hostOps0_fresh : (hostOps0 : List (HloOp τ sig (Elt F))).Forall fun op => op.fresh = ∅ := by
  simp only [List.Forall]; repeat' constructor
private theorem hostOps0_1_fresh : (hostOps0_1 : List (HloOp τ sig (Elt F))).Forall fun op => op.fresh = ∅ := by
  simp only [List.Forall]; repeat' constructor
private theorem hostOps0_2_fresh : (hostOps0_2 : List (HloOp τ sig (Elt F))).Forall fun op => op.fresh = ∅ := by
  simp only [List.Forall]; repeat' constructor

/-- The program up to the launch: three stretches of host operations, then the launch, reached holding `V`. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes an argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      Finset.mem_singleton]
    repeat' apply And.intro
    all_goals exact StableHlo.devRef_ne_of_ne (by decide)))

/-! ## The clamped routing words -/

/-- The routing words clamped into the experts' range: `min 123 (max 0 s)`, signed, word by word. -/
def clampWords (s : IVec S128 32) : IVec S128 32 :=
  minsi (broadcastInDim S128 ![] bcast_S_S128 (constantI S_ 32 123#32))
    (maxsi (broadcastInDim S128 ![] bcast_S_S128 (constantI S_ 32 0#32)) s)

/-- One word clamped: the larger of `0` and `v`, then the smaller of `123` and that, both in the signed order. If `v`
    is negative the first step gives `0`, which the second leaves. Otherwise the first step leaves `v`, and the second gives
    `123` when `v` is above it and `v`, now known to lie in `0 .. 123`, when it is not. -/
private theorem clampWord_lt (v : BitVec 32) : (IntOp.minsi 123#32 (IntOp.maxsi 0#32 v)).toNat < 124 := by
  unfold IntOp.minsi IntOp.maxsi
  have h0 : (0#32 : BitVec 32).toInt = 0 := by decide
  have h123 : (123#32 : BitVec 32).toInt = 123 := by decide
  have hv := BitVec.toInt_eq_toNat_cond v
  by_cases h1 : v.slt 0#32
  · rw [if_pos h1]
    by_cases h2 : (123#32 : BitVec 32).slt 0#32
    · rw [if_pos h2]; decide
    · rw [if_neg h2]; decide
  · rw [if_neg h1]
    by_cases h2 : (123#32 : BitVec 32).slt v
    · rw [if_pos h2]; decide
    · rw [if_neg h2]
      rw [BitVec.slt_iff_toInt_lt] at h1 h2
      rw [h0] at h1; rw [h123] at h2
      split at hv <;> omega

/-- A word whose signed value is in `0 .. 123` passes both steps unchanged: it is not below `0`, and `123` is not below it. -/
private theorem clampWord_of_range (v : BitVec 32) (h : 0 ≤ v.toInt ∧ v.toInt < 124) :
    IntOp.minsi 123#32 (IntOp.maxsi 0#32 v) = v := by
  unfold IntOp.minsi IntOp.maxsi
  have h0 : (0#32 : BitVec 32).toInt = 0 := by decide
  have h123 : (123#32 : BitVec 32).toInt = 123 := by decide
  have h1 : ¬ v.slt 0#32 := by rw [BitVec.slt_iff_toInt_lt, h0]; omega
  rw [if_neg h1]
  have h2 : ¬ (123#32 : BitVec 32).slt v := by rw [BitVec.slt_iff_toInt_lt, h123]; omega
  rw [if_neg h2]

/-- At an index the clamp is the clamp of that word: a broadcast constant reads the constant at every index, and the
    signed minimum and maximum of vectors are taken word by word. -/
private theorem clampWords_apply (s : IVec S128 32) (n : S128.Idx) :
    clampWords s n = IntOp.minsi 123#32 (IntOp.maxsi 0#32 (s n)) := rfl

/-- A clamped word names an expert. -/
theorem clampWords_lt (s : IVec S128 32) (n : S128.Idx) : (clampWords s n).toNat < 124 := by
  rw [clampWords_apply]; exact clampWord_lt (s n)

/-- A word already in range is left alone. -/
theorem clampWords_of_range (s : IVec S128 32) (n : S128.Idx) (h : 0 ≤ (s n).toInt ∧ (s n).toInt < 124) :
    clampWords s n = s n := by
  rw [clampWords_apply]; exact clampWord_of_range (s n) h

/-- The prefetched table at the launch is the clamped routing words. -/
theorem V_main_v0 (c : Dev nD) :
    (V m c main_v0 : IVec S128 32) = clampWords (m ((c : Thread nD τ).loc main_arg1)) := by
  dsimp only [V]
  simp only [hostOps0, hostOps0_1, hostOps0_2, List.flatten_cons, List.flatten_nil, List.append_nil, List.cons_append,
    List.nil_append]
  after_results
  rfl

/-- The bias operand at the launch is `b` with a trailing unit axis. -/
theorem V_main_v1 (c : Dev nD) :
    (V m c main_v1 : FVec F S124x270x1 .f32)
      = broadcastInDim S124x270x1 ![0, 1] bcast_S124x270_S124x270x1_0_1 (m ((c : Thread nD τ).loc main_arg3)) := by
  dsimp only [V]
  simp only [hostOps0, hostOps0_1, hostOps0_2, List.flatten_cons, List.flatten_nil, List.append_nil, List.cons_append,
    List.nil_append]
  after_results

/-! ## The table's contents and the index maps at them -/

/-- Word `j` of a table's contents. -/
def wordAt (pf : pre0.Contents (Elt F)) (j : Fin 128) : BitVec 32 := pf 0 (ix1 j)

/-- The one index of a one-word rectangle at offset `k` of the table is index `k`: the rectangle places its own
    index `0` at `k + 1 * 0`. -/
private theorem unit_emb_first (k : Nat) (hk : k < 128) (inb : ∀ a, (![k] : Fin 1 → Nat) a + S1.size a ≤ S128.size a)
    (h1 : 0 < (Rect.unit (s := S128) ![k] S1.size inb).shape.numel) :
    (Rect.unit (s := S128) ![k] S1.size inb).emb (Shape.Idx.first h1) = ix1 ⟨k, hk⟩ := by
  funext a
  match a with
  | ⟨0, _⟩ => exact Fin.ext (by rw [Rect.emb_apply]; show k + 1 * 0 = k; omega)

/-- What an index map's scalar load reads at offsets `off` that are `[k]`: word `k` of the table, at any contents. -/
private theorem tableWord_eq (pf : pre0.Contents (Elt F)) (off : Fin 1 → Nat)
    (inb : ∀ a, off a + S1.size a ≤ S128.size a) (k : Nat) (hk : k < 128) (hoff : off = ![k]) :
    (pf.at 0 (Rect.unit (s := S128) off S1.size inb) numel1_S1 : BitVec 32) = wordAt pf ⟨k, hk⟩ := by
  subst hoff
  exact congrArg (pf 0) (unit_emb_first k hk inb _)

/-- The index maps that read the table, in closed form at ANY contents `pf` of it: the expert's block is the
    table's word at twice the point (windows 1 and 3), or at twice the point plus one (windows 2 and 4). -/
theorem transform_1_eq (pf : pre0.Contents (Elt F)) (i : grid0.Coords) (h : 2 * (i 0).val < 128) :
    cc0_transform_1 k0_off1_inb numel1_S1 pf i = ![(wordAt pf ⟨2 * (i 0).val, h⟩).toNat, 0, 0] := by
  show ![(pf.at 0 (Rect.unit (s := S128) (k0_off1 i) S1.size (k0_off1_inb i)) numel1_S1 : BitVec 32).toNat,
      (0#32 : BitVec 32).toNat, (0#32 : BitVec 32).toNat] = _
  rw [tableWord_eq pf (k0_off1 i) (k0_off1_inb i) (2 * (i 0).val) h (k0_off1_eq i)]
  rfl
theorem transform_2_eq (pf : pre0.Contents (Elt F)) (i : grid0.Coords) (h : 2 * (i 0).val + 1 < 128) :
    cc0_transform_2 k0_off2_inb numel1_S1 pf i = ![(wordAt pf ⟨2 * (i 0).val + 1, h⟩).toNat, 0, 0] := by
  show ![(pf.at 0 (Rect.unit (s := S128) (k0_off2 i) S1.size (k0_off2_inb i)) numel1_S1 : BitVec 32).toNat,
      (0#32 : BitVec 32).toNat, (0#32 : BitVec 32).toNat] = _
  rw [tableWord_eq pf (k0_off2 i) (k0_off2_inb i) (2 * (i 0).val + 1) h (k0_off2_eq i)]
  rfl
theorem transform_3_eq (pf : pre0.Contents (Elt F)) (i : grid0.Coords) :
    cc0_transform_3 k0_off1_inb numel1_S1 pf i = cc0_transform_1 k0_off1_inb numel1_S1 pf i := rfl
theorem transform_4_eq (pf : pre0.Contents (Elt F)) (i : grid0.Coords) :
    cc0_transform_4 k0_off2_inb numel1_S1 pf i = cc0_transform_2 k0_off2_inb numel1_S1 pf i := rfl
/-- A grid point is below 64. -/
theorem coord_lt (i : grid0.Coords) : (i 0).val < 64 := (i 0).isLt

/-- The block of one expert's matrix at a word below 124 lies inside the array of 124 matrices: on the experts' axis
    the block is one wide and starts below 124, and the other two axes are taken whole. -/
private theorem block_inb_matrix (w : Nat) (hw : w < 124) (a : Fin 3) :
    ((![w, 0, 0] : Fin 3 → Nat) a + 1) * S1x270x270.size a ≤ S124x270x270.size a := by
  match a with
  | ⟨0, _⟩ => show (w + 1) * 1 ≤ 124; omega
  | ⟨1, _⟩ => show (0 + 1) * 270 ≤ 270; omega
  | ⟨2, _⟩ => show (0 + 1) * 270 ≤ 270; omega

/-- The same of one expert's bias column inside the array of 124 columns. -/
private theorem block_inb_column (w : Nat) (hw : w < 124) (a : Fin 3) :
    ((![w, 0, 0] : Fin 3 → Nat) a + 1) * S1x270x1.size a ≤ S124x270x1.size a := by
  match a with
  | ⟨0, _⟩ => show (w + 1) * 1 ≤ 124; omega
  | ⟨1, _⟩ => show (0 + 1) * 270 ≤ 270; omega
  | ⟨2, _⟩ => show (0 + 1) * 1 ≤ 1; omega

/-- The pipeline's side condition at any contents whose words all name an expert. A grid point `p` is below 64, so the
    words read are at `2p` and `2p + 1`, both below 128; each is below 124 by hypothesis, which places the block; and the
    elements are 32 bits wide, so every transfer ends on a word. -/
theorem ok_of_words_lt (pf : pre0.Contents (Elt F)) (h : ∀ j, (wordAt pf j).toNat < 124) : ok0 (F := F) pf := by
  have h1 : ∀ i : grid0.Coords, 2 * (i 0).val < 128 := fun i => by have := coord_lt i; omega
  have h2 : ∀ i : grid0.Coords, 2 * (i 0).val + 1 < 128 := fun i => by have := coord_lt i; omega
  unfold ok0
  refine ⟨fun i => ⟨fun a => ?_, .inl rfl⟩, fun i => ⟨fun a => ?_, .inl rfl⟩, fun i => ⟨fun a => ?_, .inl rfl⟩,
    fun i => ⟨fun a => ?_, .inl rfl⟩⟩
  · rw [transform_1_eq pf i (h1 i)]; exact block_inb_matrix _ (h _) a
  · rw [transform_2_eq pf i (h2 i)]; exact block_inb_matrix _ (h _) a
  · rw [transform_3_eq, transform_1_eq pf i (h1 i)]; exact block_inb_column _ (h _) a
  · rw [transform_4_eq, transform_2_eq pf i (h2 i)]; exact block_inb_column _ (h _) a

/-- The table's contents when the launch is reached (the program runs on ONE device: device 0's). -/
def tbl : pre0.Contents (Elt F) := fun j => V m (0 : Dev nD) (pre0.ref j)

/-- On every device the table holds those contents (there is one device). -/
theorem V_pre (c : Dev nD) (j : Fin 1) : V m c (pre0.ref j) = tbl m j := by
  obtain rfl : c = 0 := Subsingleton.elim _ _; rfl

/-- Word `j` of the table at the launch is the clamped routing word `j`. -/
theorem wordAt_tbl (j : Fin 128) :
    wordAt (tbl m) j = clampWords (m (((0 : Dev nD) : Thread nD τ).loc main_arg1)) (ix1 j) :=
  congrFun (V_main_v0 m 0) (ix1 j)

/-- The pipeline's side condition holds of the table at the launch, whatever the routing words are. -/
theorem ok : ok0 (F := F) (tbl m) :=
  ok_of_words_lt (tbl m) fun j => by rw [wordAt_tbl]; exact clampWords_lt _ _

end Cert.Kernel.Hand

end
-- ==== Proof.BitsBody.lean ====
/-
  One grid point of the kernel, run once on arbitrary staging buffers.

  The body reads its two samples' blocks (the two halves of a 2 x 270 x 2048 buffer), the two experts'
  matrices and bias columns, and writes each sample's result into its half of the output buffer. It
  also loads each half of the output buffer before storing into it; nothing is done with what those
  loads read, so the output buffer may hold anything when the body starts. Every input buffer is
  handed back as it was; the output buffer ends as whatever it held overwritten by the two stores,
  and the two stores' rectangles (rows 0 and 1 of the leading axis) tile the buffer, so nothing of the
  earlier contents survives.
-/
import proofs.«429278_j10419590660547_3_alg».proof.Proof.Gen.Kernel.Launch
import proofs.«429278_j10419590660547_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the output buffer, as pieces (last first), with the proof that from whole
    buffers — the five inputs at their contents, the output at anything — the body runs to the
    continuation holding the inputs as they were and the output with those pieces written. -/
noncomputable def bodyRun (c : Dev nD) (i : grid0.Coords)
    (arg1 : Memref sig .tc .smem S128 .i32) (harg1 : arg1.IsWhole)
    (arg2 : Memref sig .tc .vmem S2x270x2048 .f32) (harg2 : arg2.IsWhole)
    (arg3 : Memref sig .tc .vmem S1x270x270 .f32) (harg3 : arg3.IsWhole)
    (arg4 : Memref sig .tc .vmem S1x270x270 .f32) (harg4 : arg4.IsWhole)
    (arg5 : Memref sig .tc .vmem S1x270x1 .f32) (harg5 : arg5.IsWhole)
    (arg6 : Memref sig .tc .vmem S1x270x1 .f32) (harg6 : arg6.IsWhole)
    (arg7 : Memref sig .tc .vmem S2x270x2048 .f32) (harg7 : arg7.IsWhole)
    (x : Vec F S2x270x2048 .f32) (w0 w1 : Vec F S1x270x270 .f32) (b0 b1 : Vec F S1x270x1 .f32) :
    { L : List (View.Piece (Elt F) S2x270x2048 .f32) //
      ∀ (E : Set ℕ) (K : PUnit → sProp 𝕄),
        iprop(owns (c : Thread nD τ) arg2 fullShare x ∗ owns (c : Thread nD τ) arg3 fullShare w0
            ∗ owns (c : Thread nD τ) arg4 fullShare w1 ∗ owns (c : Thread nD τ) arg5 fullShare b0
            ∗ owns (c : Thread nD τ) arg6 fullShare b1 ∗ (∃ d, owns (c : Thread nD τ) arg7 fullShare d)
            ∗ (iprop(owns (c : Thread nD τ) arg2 fullShare x ∗ owns (c : Thread nD τ) arg3 fullShare w0
                ∗ owns (c : Thread nD τ) arg4 fullShare w1 ∗ owns (c : Thread nD τ) arg5 fullShare b0
                ∗ owns (c : Thread nD τ) arg6 fullShare b1
                ∗ (∃ f, arg7.view.loc (c : Thread nD τ) ↦[arg7.view.set]{fullShare} arg7.view.writes (Elt F) f L)) -∗ K ⟨⟩))
          ⊢ wp frame (wpE (defs₀ (F := F)) Variants.none c none) E
              (cc0__moe_kernel i arg1 harg1 arg2 harg2 arg3 harg3 arg4 harg4 arg5 harg5 arg6 harg6 arg7 harg7) K } := by
  refine ⟨?_, fun E K => ?run⟩
  case run =>
    simp only [cc0__moe_kernel_eq_skeleton]; unfold cc0__moe_kernel_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf2; obtain rfl := harg3.eq_unread hf3; obtain rfl := harg4.eq_unread hf4
    obtain rfl := harg5.eq_unread hf5; obtain rfl := harg6.eq_unread hf6
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H7

end Cert.Kernel.Hand

end
-- ==== Proof.BitsData.lean ====
/-
  The pipeline's proof data at the table the launch finds.

  At grid point `t` (of 64) the pipeline hands the body: the pair of samples `2t, 2t+1` (window 0, a block
  of 2 x 270 x 2048 of `x`), the matrices of the experts named by table words `2t` and `2t+1` (windows 1 and
  2, blocks of ONE array, `W`), their bias columns (windows 3 and 4, blocks of ONE array, the bias table with
  a trailing unit axis), and an output buffer (window 5) that it writes back as block `t` of the result.

  The data say: every input buffer holds its array's block at the point, whether it was fetched there or kept
  from the point before (a window is re-fetched only when its block index moves; kept, it still holds the block
  of that same index); the output buffer holds, after the body, the two stores' contents over the point's
  input blocks. Two windows read `W` and two read the bias table, so each of those arrays is held as two
  half shares, one per window; the samples' array and the result are held whole. The body needs nothing
  between points beyond the buffers the pipeline hands it, so the invariant is only the core's scoped
  buffers the pipeline does not stage.
-/
import proofs.«429278_j10419590660547_3_alg».proof.Proof.BitsHost
import proofs.«429278_j10419590660547_3_alg».proof.Proof.BitsBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The pipeline at the table the launch finds -/

/-- The table's contents at the launch as ADMISSIBLE contents (the side condition holds of them), and the
    pipeline at them. -/
abbrev adm : (pcfg0 (F := F)).Adm := ⟨tbl m, ok m⟩
abbrev cfgM : Pipeline.Cfg sig Λ₀ := cfg0 (adm m)

/-! ## What the body leaves in the output buffer -/

/-- The body's two stores tile the output buffer (rows 0 and 1 of its leading axis), so they cover it. -/
theorem cover (c : Dev nD) (i : grid0.Coords)
    (arg1 : Memref sig .tc .smem S128 .i32) (harg1 : arg1.IsWhole)
    (arg2 : Memref sig .tc .vmem S2x270x2048 .f32) (harg2 : arg2.IsWhole)
    (arg3 : Memref sig .tc .vmem S1x270x270 .f32) (harg3 : arg3.IsWhole)
    (arg4 : Memref sig .tc .vmem S1x270x270 .f32) (harg4 : arg4.IsWhole)
    (arg5 : Memref sig .tc .vmem S1x270x1 .f32) (harg5 : arg5.IsWhole)
    (arg6 : Memref sig .tc .vmem S1x270x1 .f32) (harg6 : arg6.IsWhole)
    (arg7 : Memref sig .tc .vmem S2x270x2048 .f32) (harg7 : arg7.IsWhole)
    (x : Vec F S2x270x2048 .f32) (w0 w1 : Vec F S1x270x270 .f32) (b0 b1 : Vec F S1x270x1 .f32) (y : S2x270x2048.Idx) :
    ∃ pc ∈ (bodyRun c i arg1 harg1 arg2 harg2 arg3 harg3 arg4 harg4 arg5 harg5 arg6 harg6 arg7 harg7 x w0 w1 b0 b1).1, y ∈ pc.1.set :=
  View.cover_of_tiledL (bodyRun c i arg1 harg1 arg2 harg2 arg3 harg3 arg4 harg4 arg5 harg5 arg6 harg6 arg7 harg7 x w0 w1 b0 b1).1
    S1x270x2048.size (by sl_kernel_rfl) y

/-- One staging buffer of the output window, through which the stores' contents are read (since they cover
    the buffer, the choice does not matter). -/
abbrev VO : View sig .tc .vmem S2x270x2048 .f32 := (Memref.whole cc0_stg5_0 : Memref sig .tc .vmem S2x270x2048 .f32).view

/-- What the body leaves in the output buffer: its stores read back. -/
def outBlk (c : Dev nD) (i : grid0.Coords)
    (arg1 : Memref sig .tc .smem S128 .i32) (harg1 : arg1.IsWhole)
    (arg2 : Memref sig .tc .vmem S2x270x2048 .f32) (harg2 : arg2.IsWhole)
    (arg3 : Memref sig .tc .vmem S1x270x270 .f32) (harg3 : arg3.IsWhole)
    (arg4 : Memref sig .tc .vmem S1x270x270 .f32) (harg4 : arg4.IsWhole)
    (arg5 : Memref sig .tc .vmem S1x270x1 .f32) (harg5 : arg5.IsWhole)
    (arg6 : Memref sig .tc .vmem S1x270x1 .f32) (harg6 : arg6.IsWhole)
    (arg7 : Memref sig .tc .vmem S2x270x2048 .f32) (harg7 : arg7.IsWhole)
    (x : Vec F S2x270x2048 .f32) (w0 w1 : Vec F S1x270x270 .f32) (b0 b1 : Vec F S1x270x1 .f32) : Vec F S2x270x2048 .f32 :=
  VO.read (Elt F) (VO.writes (Elt F) VO.junk
    (bodyRun c i arg1 harg1 arg2 harg2 arg3 harg3 arg4 harg4 arg5 harg5 arg6 harg6 arg7 harg7 x w0 w1 b0 b1).1)

/-! ## The windows' blocks and staging buffers at a point -/

/-- Window `w`'s block at point `t`, read off its array as the launch finds it; for a window whose index map
    reads the table, the block the table's word selects. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- Each window's current staging buffer at point `t`, as the pipeline passes it to the body, and that it is a
    whole buffer. -/
abbrev ms0 (t : Fin (cfgM m).N) : Memref sig .tc .vmem S2x270x2048 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x270x270 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x270x270 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x270x1 .f32 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S1x270x1 .f32 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S2x270x2048 .f32 := spec0_5.stage ((cfgM m).slots t 5)
abbrev hs5 (t : Fin (cfgM m).N) : (ms5 m t).IsWhole := hstage0_5 (((cfgM m).slots t 5).cast nbuf0_5)

/-- The kernel body at point `t`, on what the pipeline calls it with. -/
abbrev bodyAt (t : Fin (cfgM m).N) : Prog (TpuEff nD τ sig (Elt F) Λ₀ .tc) PUnit :=
  cc0__moe_kernel (grid0.coords t) (Memref.whole main_v0) (Memref.isWhole_whole _) (ms0 m t) (hs0 m t) (ms1 m t) (hs1 m t)
    (ms2 m t) (hs2 m t) (ms3 m t) (hs3 m t) (ms4 m t) (hs4 m t) (ms5 m t) (hs5 m t)

/-- What the output buffer holds after the body at point `t`: the stores' contents over the point's input blocks. -/
def outAt (c : Dev nD) (t : Fin (cfgM m).N) : Vec F S2x270x2048 .f32 :=
  outBlk c (grid0.coords t) (Memref.whole main_v0) (Memref.isWhole_whole _) (ms0 m t) (hs0 m t) (ms1 m t) (hs1 m t)
    (ms2 m t) (hs2 m t) (ms3 m t) (hs3 m t) (ms4 m t) (hs4 m t) (ms5 m t) (hs5 m t)
    (iblk m c 0 t) (iblk m c 1 t) (iblk m c 2 t) (iblk m c 3 t) (iblk m c 4 t)

/-! ## The proof data -/

/-- The proof data of the one pipeline on core `c`. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.scopedRest (Ix := Unit) (Name := ℕ) (U := UR sig nD τ) (Lvl := ℕ) (Val := Elt F) spec0 c
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

/-- The data's arrays are the contents at the launch. -/
theorem A_eq (c : Dev nD) (w : Fin (cfgM m).W) : (dats m 0 c).A w = V m c (Pipeline.arrRef spec0 w) := by
  dsimp only [dats]

/-- What the body leaves, window by window. -/
theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = iblk m c 3 t := by dsimp only [dats]; try rfl
theorem after_4 (c : Dev nD) (t : Fin (cfgM m).N) : (dats m 0 c).after 4 t = iblk m c 4 t := by dsimp only [dats]; try rfl
theorem after_5 (c : Dev nD) (t : Fin (cfgM m).N) : (dats m 0 c).after 5 t = outAt m c t := by dsimp only [dats]; try rfl

/-- An input window's current buffer holds its block at every point, fetched there or kept: kept, the block
    index has not moved since the point that fetched it. The windows are never idle and their blocks are not
    clipped. -/
theorem before_0 (c : Dev nD) (t : Fin (cfgM m).N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfgM m).N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfgM m).N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfgM m).N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfgM m).N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-! ## The body obligation, at a generic point -/

/-- What the body is called with at point `t`: the invariant, nothing owed, and each window's current buffer at
    what it then holds. -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ owns (c : Thread nD τ) (ms4 m t) fullShare ((dats m 0 c).after 4 t)
    ∗ owns (c : Thread nD τ) (ms5 m t) fullShare ((dats m 0 c).after 5 t))

/-- The body at any point: the input buffers hold their blocks, so the run applies; the invariant passes
    through untouched; the core owes nothing throughout; the output buffer ends at the stores read back,
    because they cover it. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  unfold outAt
  unfold outBlk
  iintro ⟨HΦ, Ho, ⟨%d0, H0⟩, ⟨%d1, H1⟩, ⟨%d2, H2⟩, ⟨%d3, H3⟩, ⟨%d4, H4⟩, ⟨%d5, H5⟩⟩
  iapply ((bodyRun c (grid0.coords t) _ _ _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BitsRun.lean ====
/-
  The launch: from the launch memory every weakly fair execution of the program terminates, and at the end
  every array a window reads or writes holds what the proof data compute, and every other buffer what it held
  when the launch was reached.

  Two of the kernel's operands are ONE array each handed to two windows (the experts' matrices; their bias
  columns). The launch hands the pipeline each distinct array whole; the pipeline wants one holding per
  window. A whole holding of an array splits into two half holdings at the same contents, which is what
  the two windows on it take; the samples' array and the result's go to their one window whole.
-/
import proofs.«429278_j10419590660547_3_alg».proof.Proof.BitsData
import Idealize.ShloMosaic.Lib.Pipeline.Kit
import Idealize.ShloMosaic.Lib.Pipeline.Launch
import Idealize.ShloMosaic.Lib.Pipeline.Frame
import Idealize.ShloMosaic.Adequacy
import Idealize.ShloMosaic.Init

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the launch, one holding per window -/

/-- The distinct arrays behind the six windows. -/
theorem arrRefs_eq : Finset.univ.image (Pipeline.arrRef spec0) = insert main_arg0 (insert main_arg2 (insert main_v1 {main_v2})) := by decide

/-- At ANY contents `a` of the table, for any proof data whose entry arrays are the contents `Vc` and whose
    windows 1 to 4 hold the left and right halves: the four distinct arrays held whole split into the six
    windows' holdings. -/
theorem arrays_split_at (a : (pcfg0 (F := F)).Adm) (c : Dev nD) (dat : Dat τ (Elt F) Unit ℕ (UR sig nD τ) ℕ (cfg0 a) c)
    (Vc : (b : Ref sig .tc) → Buf (Elt F) ((c.tc : Thread nD τ).loc b))
    (hA : ∀ w, dat.A w = Vc (Pipeline.arrRef spec0 w))
    (h0 : dat.q 0 = fullShare) (h1 : dat.q 1 = fullShare.left) (h2 : dat.q 2 = fullShare.right)
    (h3 : dat.q 3 = fullShare.left) (h4 : dat.q 4 = fullShare.right) :
    (Pipeline.arrBufs (Ix := Unit) (Name := ℕ) (U := UR sig nD τ) (Lvl := ℕ) (cfg0 a).spec c Vc : sProp 𝕄)
      ⊢ dat.arrays (dat.arrAt · 0) := by
  have e : ∀ w : Fin (cfg0 a).W,
      (((cfg0 a).win w).arr.view.loc (c.tc : Thread nD τ) ↦[((cfg0 a).win w).arr.view.set]{dat.share w} dat.arrAt w 0 : sProp 𝕄)
        = ((c.tc : Thread nD τ).loc (Pipeline.arrRef spec0 w) ↦{dat.share w} Vc (Pipeline.arrRef spec0 w)) := fun w => by
    rw [(arr_whole0 w).set_eq_univ, show dat.arrAt w 0 = dat.A w from rfl, hA]
  have s0 : dat.share 0 = fullShare := by unfold Dat.share; exact (if_neg Bool.false_ne_true).trans h0
  have s1 : dat.share 1 = fullShare.left := by unfold Dat.share; exact (if_neg Bool.false_ne_true).trans h1
  have s2 : dat.share 2 = fullShare.right := by unfold Dat.share; exact (if_neg Bool.false_ne_true).trans h2
  have s3 : dat.share 3 = fullShare.left := by unfold Dat.share; exact (if_neg Bool.false_ne_true).trans h3
  have s4 : dat.share 4 = fullShare.right := by unfold Dat.share; exact (if_neg Bool.false_ne_true).trans h4
  have s5 : dat.share 5 = fullShare := by unfold Dat.share; exact if_pos rfl
  unfold Pipeline.arrBufs Dat.arrays
  rw [bigSep_congr (fun w _ => e w), bigSep_W0, s0, s1, s2, s3, s4, s5]
  rw [show Finset.univ.image (Pipeline.arrRef (cfg0 a).spec) = insert main_arg0 (insert main_arg2 (insert main_v1 {main_v2})) from arrRefs_eq,
    bigSep_insert (by decide), bigSep_insert (by decide), bigSep_insert (by decide), bigSep_singleton]
  refine (show iprop(((c.tc : Thread nD τ).loc main_arg0 ↦{fullShare} Vc main_arg0)
      ∗ ((c.tc : Thread nD τ).loc main_arg2 ↦{fullShare} Vc main_arg2)
      ∗ ((c.tc : Thread nD τ).loc main_v1 ↦{fullShare} Vc main_v1)
      ∗ ((c.tc : Thread nD τ).loc main_v2 ↦{fullShare} Vc main_v2)) ⊢ _ from ?_)
  iintro ⟨H0, H2, H1, H5⟩
  ihave H2' := (pointsTo_share (PosShare.mem_left_op_right fullShare)).1 $$ H2
  icases H2' with ⟨H2a, H2b⟩
  ihave H1' := (pointsTo_share (PosShare.mem_left_op_right fullShare)).1 $$ H1
  icases H1' with ⟨H1a, H1b⟩
  isplitl [H0]; · iexact H0
  isplitl [H2a]; · iexact H2a
  isplitl [H2b]; · iexact H2b
  isplitl [H1a]; · iexact H1a
  isplitl [H1b]; · iexact H1b
  iexact H5

/-- The split at the table the launch finds. -/
theorem arrays_split (c : Dev nD) :
    (Pipeline.arrBufs (Ix := Unit) (Name := ℕ) (U := UR sig nD τ) (Lvl := ℕ) (cfgM m).spec c (V m c) : sProp 𝕄)
      ⊢ (dats m 0 c).arrays ((dats m 0 c).arrAt · 0) :=
  arrays_split_at (adm m) c (dats m 0 c) (V m c) (A_eq m c) rfl rfl rfl rfl rfl

/-! ## The run -/

/-- The last of three holdings, the first two let go. -/
theorem sep_third (P Q R : sProp 𝕄) : iprop(P ∗ Q ∗ R) ⊢ R := by
  iintro ⟨-, -, H⟩
  iexact H

/-- A holding, beside nothing. -/
theorem emp_sep (R : sProp 𝕄) : R ⊢ iprop(emp ∗ R) := by
  iintro H
  isplitr; · iempintro
  iexact H

/-- What the run ends with: every window's array at what the data compute after all 64 points, and every buffer
    that is neither a window's array nor the table at what it held when the launch was reached. -/
def RunPost (r : PUnit × MemSt nD τ sig (Elt F)) : Prop :=
  ∀ c : Dev nD,
    (∀ w, r.2.mem (((cfgM m).spec w).arr.view.loc (c.tc : Thread nD τ)) = (dats m 0 c).arrAt w (cfgM m).N)
    ∧ ∀ b ∈ Pipeline.restRefsP sig pre0 spec0, r.2.mem ((c.tc : Thread nD τ).loc b) = V m c b

/-- At ANY contents `a` of the table: what the launch hands the kernel gives data whose invariant is the scoped
    buffers the pipeline does not stage (the table's half share and the empty first part are let go), -/
theorem hin_at (a : (pcfg0 (F := F)).Adm) (c : Dev nD) (dat : Dat τ (Elt F) Unit ℕ (UR sig nD τ) ℕ (cfg0 a) c)
    (hΦ : dat.Φ 0 = Pipeline.scopedRest (Ix := Unit) (Name := ℕ) (U := UR sig nD τ) (Lvl := ℕ) (Val := Elt F) spec0 c)
    (X Q : sProp 𝕄) :
    iprop(X ∗ Q ∗ Pipeline.scopedRest (Ix := Unit) (Name := ℕ) (U := UR sig nD τ) (Lvl := ℕ) (Val := Elt F) (cfg0 a).spec c)
      ⊢ dat.Φ 0 := by
  rw [hΦ]
  exact sep_third _ _ _

/-- and the invariant after the last point gives them back. -/
theorem hout_at (a : (pcfg0 (F := F)).Adm) (c : Dev nD) (dat : Dat τ (Elt F) Unit ℕ (UR sig nD τ) ℕ (cfg0 a) c)
    (hΦ : dat.Φ (Fin.last (cfg0 a).N) = Pipeline.scopedRest (Ix := Unit) (Name := ℕ) (U := UR sig nD τ) (Lvl := ℕ) (Val := Elt F) spec0 c) :
    dat.Φ (Fin.last (cfg0 a).N)
      ⊢ iprop(emp ∗ Pipeline.scopedRest (Ix := Unit) (Name := ℕ) (U := UR sig nD τ) (Lvl := ℕ) (Val := Elt F) (cfg0 a).spec c) := by
  rw [hΦ]
  exact emp_sep _

/-- The data's invariant, at every point. -/
theorem Phi_eq (c : Dev nD) (t : Fin ((cfgM m).N + 1)) :
    (dats m 0 c).Φ t = Pipeline.scopedRest (Ix := Unit) (Name := ℕ) (U := UR sig nD τ) (Lvl := ℕ) (Val := Elt F) spec0 c := by
  dsimp only [dats]

set_option backward.isDefEq.respectTransparency.types false in
/-- From any memory with zero counters, every weakly fair execution of the program terminates in a state
    satisfying `RunPost`. The kernel keeps no semaphore of its own and reads no table in its body, so the
    invariant is only the scoped buffers the pipeline does not stage; the buffers the launch does not route
    (the routing words, the bias table, the host's temporaries) are set aside and read back at the end. -/
theorem run_main : θ_run defs (onTc (τ := τ) (main (F := F))) (s₀ m ρ) (RunPost m) := by
  classical
  exact Pipeline.θ_run_region_noSem_pf pcfgs (fun _ => adm m) (dats m) () (cellOf_inj (fun _ => adm m)) (0 : Fin 1)
    winFacts₀0 preFacts0 emb₁ defs₀ Variants.none m ρ main
    (hbody := fun c => (body_obligation m c).loose)
    (hne := block_pos0) (harr := arr_whole0) (hstage := stage_whole0)
    (howed := fun _ _ => rfl)
    (u₀ := initOf (Pipeline.cells (Pipeline.pin pcfgs fun _ => adm m) (cellOf_inj fun _ => adm m))
      (Pipeline.launchToks (Pipeline.pin pcfgs fun _ => adm m) (cellOf_inj fun _ => adm m)))
    (hu₀ := .rfl)
    (V := V m) (hmain := hmain m Variants.none)
    (hsplit := fun c => arrays_split m c) (hpf := V_pre m)
    (X := fun _ => iprop(emp)) (Y := fun _ => iprop(emp))
    (Z := fun c => Pipeline.unscopedRestP (Ix := Unit) (Name := ℕ) (U := UR sig nD τ) (Lvl := ℕ) pre0 spec0 c (V m c))
    (hX := fun c => emp_sep _)
    (hin := fun c => hin_at (adm m) c (dats m 0 c) (Phi_eq m c 0) _ _)
    (hout := fun c => hout_at (adm m) c (dats m 0 c) (Phi_eq m c _))
    (QY := fun c s => ∀ b ∈ Pipeline.restRefsP sig pre0 spec0, s.mem ((c.tc : Thread nD τ).loc b) = V m c b)
    (hY := fun c s' => by
      iintro ⟨-, HU, HSI⟩
      unfold Pipeline.unscopedRestP
      imodintro
      iapply (pointsTo_read_all (Pipeline.restRefsP sig pre0 spec0) (fun b => (c.tc : Thread nD τ).loc b) (V m c) s')
      isplitl [HU] <;> iassumption)
    (hQ := fun s h c => ⟨(h c).1, (h c).2.2⟩)

/-! ## The frame -/

/-- The program terminates, faults nowhere, and leaves its four argument arrays as it found them: the samples and
    the experts' matrices are arrays of input windows, which the pipeline never writes; the routing words and
    the bias table bypass the launch; and no host operation before the launch writes an argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
      ((h c).2 main_arg1 (by decide : main_arg1 ∈ Pipeline.restRefsP sig pre0 spec0)).trans (V_main_arg1 m c),
      ((h c).1 1).trans (((dats m 0 c).arrAt_in 1 rfl _).trans ((A_eq m c 1).trans (V_main_arg2 m c))),
      ((h c).2 main_arg3 (by decide : main_arg3 ∈ Pipeline.restRefsP sig pre0 spec0)).trans (V_main_arg3 m c)⟩)
    (run_main m ρ)

/-- The same run, keeping what the result's array ends at. -/
theorem run_result : θ_run defs (onTc (τ := τ) (main (F := F))) ⟨m, fun _ => 0, ρ⟩ (fun r => ∀ c : Dev nD,
      r.2.mem ((c.tc : Thread nD τ).loc main_v2) = (dats m 0 c).arrAt 5 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).1 5,
      ((h c).1 0).trans (((dats m 0 c).arrAt_in 0 rfl _).trans ((A_eq m c 0).trans (V_main_arg0 m c))),
      ((h c).2 main_arg1 (by decide : main_arg1 ∈ Pipeline.restRefsP sig pre0 spec0)).trans (V_main_arg1 m c),
      ((h c).1 1).trans (((dats m 0 c).arrAt_in 1 rfl _).trans ((A_eq m c 1).trans (V_main_arg2 m c))),
      ((h c).2 main_arg3 (by decide : main_arg3 ∈ Pipeline.restRefsP sig pre0 spec0)).trans (V_main_arg3 m c)⟩)
    (run_main m ρ)

end Cert.Kernel.Hand

end
-- ==== Proof.Host.lean ====
/-
  The host side of the kernel's program before its one launch: the routing words are clamped into
  the experts' range, the bias table is given a trailing unit axis, and nothing else is touched.

  `V m c b` is what buffer `b` of core `c` holds when the launch is reached from the memory `m`.
  The argument arrays are as launched; the prefetched table holds, word for word,
  `min 123 (max 0 s)` of the routing words `s` (signed); the bias operand is `b` with every entry
  `b[e, c]` placed at `[e, c, 0]`.

  Because every table word lies in `0 .. 123`, each block an index map selects through the table lies
  inside its array: that is the pipeline's side condition `ok0` of the table's contents, and it
  holds for EVERY input (the clamp is what makes it so; no hypothesis on the routing words is used).
-/
import proofs.«429278_j10419590660547_3_alg».proof.Proof.Gen.KernelIdeal.Launch
import proofs.«429278_j10419590660547_3_alg».proof.Proof.Gen.KernelIdeal.Skeleton
import Idealize.ShloMosaic.Lib.Pipeline.Frame
import Idealize.ShloMosaic.Lib.Pipeline.FrameBody
import Idealize.ShloMosaic.Lib.StableHlo.Run
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The buffers when the launch is reached -/

/-- Core `c`'s buffers when the launch is reached: the launch memory after the host operations before it. -/
abbrev V (c : Dev nD) (b : Ref sig .tc) : Buf (Elt F) ((c : Thread nD τ).loc b) :=
  StableHlo.after (List.flatten [hostOps0, hostOps0_1, hostOps0_2]) (fun b => m (c, b)) b

/-- No host operation allocates: each writes a buffer the program already holds. -/
private theorem hostOps0_fresh : (hostOps0 : List (HloOp τ sig (Elt F))).Forall fun op => op.fresh = ∅ := by
  simp only [List.Forall]; repeat' constructor
private theorem hostOps0_1_fresh : (hostOps0_1 : List (HloOp τ sig (Elt F))).Forall fun op => op.fresh = ∅ := by
  simp only [List.Forall]; repeat' constructor
private theorem hostOps0_2_fresh : (hostOps0_2 : List (HloOp τ sig (Elt F))).Forall fun op => op.fresh = ∅ := by
  simp only [List.Forall]; repeat' constructor

/-- The program up to the launch: three stretches of host operations, then the launch, reached holding `V`. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes an argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      Finset.mem_singleton]
    repeat' apply And.intro
    all_goals exact StableHlo.devRef_ne_of_ne (by decide)))

/-! ## The clamped routing words -/

/-- The routing words clamped into the experts' range: `min 123 (max 0 s)`, signed, word by word. -/
def clampWords (s : IVec S128 32) : IVec S128 32 :=
  minsi (broadcastInDim S128 ![] bcast_S_S128 (constantI S_ 32 123#32))
    (maxsi (broadcastInDim S128 ![] bcast_S_S128 (constantI S_ 32 0#32)) s)

/-- One word clamped: the larger of `0` and `v`, then the smaller of `123` and that, both in the signed order. If `v`
    is negative the first step gives `0`, which the second leaves. Otherwise the first step leaves `v`, and the second gives
    `123` when `v` is above it and `v`, now known to lie in `0 .. 123`, when it is not. -/
private theorem clampWord_lt (v : BitVec 32) : (IntOp.minsi 123#32 (IntOp.maxsi 0#32 v)).toNat < 124 := by
  unfold IntOp.minsi IntOp.maxsi
  have h0 : (0#32 : BitVec 32).toInt = 0 := by decide
  have h123 : (123#32 : BitVec 32).toInt = 123 := by decide
  have hv := BitVec.toInt_eq_toNat_cond v
  by_cases h1 : v.slt 0#32
  · rw [if_pos h1]
    by_cases h2 : (123#32 : BitVec 32).slt 0#32
    · rw [if_pos h2]; decide
    · rw [if_neg h2]; decide
  · rw [if_neg h1]
    by_cases h2 : (123#32 : BitVec 32).slt v
    · rw [if_pos h2]; decide
    · rw [if_neg h2]
      rw [BitVec.slt_iff_toInt_lt] at h1 h2
      rw [h0] at h1; rw [h123] at h2
      split at hv <;> omega

/-- A word whose signed value is in `0 .. 123` passes both steps unchanged: it is not below `0`, and `123` is not below it. -/
private theorem clampWord_of_range (v : BitVec 32) (h : 0 ≤ v.toInt ∧ v.toInt < 124) :
    IntOp.minsi 123#32 (IntOp.maxsi 0#32 v) = v := by
  unfold IntOp.minsi IntOp.maxsi
  have h0 : (0#32 : BitVec 32).toInt = 0 := by decide
  have h123 : (123#32 : BitVec 32).toInt = 123 := by decide
  have h1 : ¬ v.slt 0#32 := by rw [BitVec.slt_iff_toInt_lt, h0]; omega
  rw [if_neg h1]
  have h2 : ¬ (123#32 : BitVec 32).slt v := by rw [BitVec.slt_iff_toInt_lt, h123]; omega
  rw [if_neg h2]

/-- At an index the clamp is the clamp of that word: a broadcast constant reads the constant at every index, and the
    signed minimum and maximum of vectors are taken word by word. -/
private theorem clampWords_apply (s : IVec S128 32) (n : S128.Idx) :
    clampWords s n = IntOp.minsi 123#32 (IntOp.maxsi 0#32 (s n)) := rfl

/-- A clamped word names an expert. -/
theorem clampWords_lt (s : IVec S128 32) (n : S128.Idx) : (clampWords s n).toNat < 124 := by
  rw [clampWords_apply]; exact clampWord_lt (s n)

/-- A word already in range is left alone. -/
theorem clampWords_of_range (s : IVec S128 32) (n : S128.Idx) (h : 0 ≤ (s n).toInt ∧ (s n).toInt < 124) :
    clampWords s n = s n := by
  rw [clampWords_apply]; exact clampWord_of_range (s n) h

/-- The prefetched table at the launch is the clamped routing words. -/
theorem V_main_v0 (c : Dev nD) :
    (V m c main_v0 : IVec S128 32) = clampWords (m ((c : Thread nD τ).loc main_arg1)) := by
  dsimp only [V]
  simp only [hostOps0, hostOps0_1, hostOps0_2, List.flatten_cons, List.flatten_nil, List.append_nil, List.cons_append,
    List.nil_append]
  after_results
  rfl

/-- The bias operand at the launch is `b` with a trailing unit axis. -/
theorem V_main_v1 (c : Dev nD) :
    (V m c main_v1 : FVec F S124x270x1 .f32)
      = broadcastInDim S124x270x1 ![0, 1] bcast_S124x270_S124x270x1_0_1 (m ((c : Thread nD τ).loc main_arg3)) := by
  dsimp only [V]
  simp only [hostOps0, hostOps0_1, hostOps0_2, List.flatten_cons, List.flatten_nil, List.append_nil, List.cons_append,
    List.nil_append]
  after_results

/-! ## The table's contents and the index maps at them -/

/-- Word `j` of a table's contents. -/
def wordAt (pf : pre0.Contents (Elt F)) (j : Fin 128) : BitVec 32 := pf 0 (ix1 j)

/-- The one index of a one-word rectangle at offset `k` of the table is index `k`: the rectangle places its own
    index `0` at `k + 1 * 0`. -/
private theorem unit_emb_first (k : Nat) (hk : k < 128) (inb : ∀ a, (![k] : Fin 1 → Nat) a + S1.size a ≤ S128.size a)
    (h1 : 0 < (Rect.unit (s := S128) ![k] S1.size inb).shape.numel) :
    (Rect.unit (s := S128) ![k] S1.size inb).emb (Shape.Idx.first h1) = ix1 ⟨k, hk⟩ := by
  funext a
  match a with
  | ⟨0, _⟩ => exact Fin.ext (by rw [Rect.emb_apply]; show k + 1 * 0 = k; omega)

/-- What an index map's scalar load reads at offsets `off` that are `[k]`: word `k` of the table, at any contents. -/
private theorem tableWord_eq (pf : pre0.Contents (Elt F)) (off : Fin 1 → Nat)
    (inb : ∀ a, off a + S1.size a ≤ S128.size a) (k : Nat) (hk : k < 128) (hoff : off = ![k]) :
    (pf.at 0 (Rect.unit (s := S128) off S1.size inb) numel1_S1 : BitVec 32) = wordAt pf ⟨k, hk⟩ := by
  subst hoff
  exact congrArg (pf 0) (unit_emb_first k hk inb _)

/-- The index maps that read the table, in closed form at ANY contents `pf` of it: the expert's block is the
    table's word at twice the point (windows 1 and 3), or at twice the point plus one (windows 2 and 4). -/
theorem transform_1_eq (pf : pre0.Contents (Elt F)) (i : grid0.Coords) (h : 2 * (i 0).val < 128) :
    cc0_transform_1 k0_off1_inb numel1_S1 pf i = ![(wordAt pf ⟨2 * (i 0).val, h⟩).toNat, 0, 0] := by
  show ![(pf.at 0 (Rect.unit (s := S128) (k0_off1 i) S1.size (k0_off1_inb i)) numel1_S1 : BitVec 32).toNat,
      (0#32 : BitVec 32).toNat, (0#32 : BitVec 32).toNat] = _
  rw [tableWord_eq pf (k0_off1 i) (k0_off1_inb i) (2 * (i 0).val) h (k0_off1_eq i)]
  rfl
theorem transform_2_eq (pf : pre0.Contents (Elt F)) (i : grid0.Coords) (h : 2 * (i 0).val + 1 < 128) :
    cc0_transform_2 k0_off2_inb numel1_S1 pf i = ![(wordAt pf ⟨2 * (i 0).val + 1, h⟩).toNat, 0, 0] := by
  show ![(pf.at 0 (Rect.unit (s := S128) (k0_off2 i) S1.size (k0_off2_inb i)) numel1_S1 : BitVec 32).toNat,
      (0#32 : BitVec 32).toNat, (0#32 : BitVec 32).toNat] = _
  rw [tableWord_eq pf (k0_off2 i) (k0_off2_inb i) (2 * (i 0).val + 1) h (k0_off2_eq i)]
  rfl
theorem transform_3_eq (pf : pre0.Contents (Elt F)) (i : grid0.Coords) :
    cc0_transform_3 k0_off1_inb numel1_S1 pf i = cc0_transform_1 k0_off1_inb numel1_S1 pf i := rfl
theorem transform_4_eq (pf : pre0.Contents (Elt F)) (i : grid0.Coords) :
    cc0_transform_4 k0_off2_inb numel1_S1 pf i = cc0_transform_2 k0_off2_inb numel1_S1 pf i := rfl
/-- A grid point is below 64. -/
theorem coord_lt (i : grid0.Coords) : (i 0).val < 64 := (i 0).isLt

/-- The block of one expert's matrix at a word below 124 lies inside the array of 124 matrices: on the experts' axis
    the block is one wide and starts below 124, and the other two axes are taken whole. -/
private theorem block_inb_matrix (w : Nat) (hw : w < 124) (a : Fin 3) :
    ((![w, 0, 0] : Fin 3 → Nat) a + 1) * S1x270x270.size a ≤ S124x270x270.size a := by
  match a with
  | ⟨0, _⟩ => show (w + 1) * 1 ≤ 124; omega
  | ⟨1, _⟩ => show (0 + 1) * 270 ≤ 270; omega
  | ⟨2, _⟩ => show (0 + 1) * 270 ≤ 270; omega

/-- The same of one expert's bias column inside the array of 124 columns. -/
private theorem block_inb_column (w : Nat) (hw : w < 124) (a : Fin 3) :
    ((![w, 0, 0] : Fin 3 → Nat) a + 1) * S1x270x1.size a ≤ S124x270x1.size a := by
  match a with
  | ⟨0, _⟩ => show (w + 1) * 1 ≤ 124; omega
  | ⟨1, _⟩ => show (0 + 1) * 270 ≤ 270; omega
  | ⟨2, _⟩ => show (0 + 1) * 1 ≤ 1; omega

/-- The pipeline's side condition at any contents whose words all name an expert. A grid point `p` is below 64, so the
    words read are at `2p` and `2p + 1`, both below 128; each is below 124 by hypothesis, which places the block; and the
    elements are 32 bits wide, so every transfer ends on a word. -/
theorem ok_of_words_lt (pf : pre0.Contents (Elt F)) (h : ∀ j, (wordAt pf j).toNat < 124) : ok0 (F := F) pf := by
  have h1 : ∀ i : grid0.Coords, 2 * (i 0).val < 128 := fun i => by have := coord_lt i; omega
  have h2 : ∀ i : grid0.Coords, 2 * (i 0).val + 1 < 128 := fun i => by have := coord_lt i; omega
  unfold ok0
  refine ⟨fun i => ⟨fun a => ?_, .inl rfl⟩, fun i => ⟨fun a => ?_, .inl rfl⟩, fun i => ⟨fun a => ?_, .inl rfl⟩,
    fun i => ⟨fun a => ?_, .inl rfl⟩⟩
  · rw [transform_1_eq pf i (h1 i)]; exact block_inb_matrix _ (h _) a
  · rw [transform_2_eq pf i (h2 i)]; exact block_inb_matrix _ (h _) a
  · rw [transform_3_eq, transform_1_eq pf i (h1 i)]; exact block_inb_column _ (h _) a
  · rw [transform_4_eq, transform_2_eq pf i (h2 i)]; exact block_inb_column _ (h _) a

/-- The table's contents when the launch is reached (the program runs on ONE device: device 0's). -/
def tbl : pre0.Contents (Elt F) := fun j => V m (0 : Dev nD) (pre0.ref j)

/-- On every device the table holds those contents (there is one device). -/
theorem V_pre (c : Dev nD) (j : Fin 1) : V m c (pre0.ref j) = tbl m j := by
  obtain rfl : c = 0 := Subsingleton.elim _ _; rfl

/-- Word `j` of the table at the launch is the clamped routing word `j`. -/
theorem wordAt_tbl (j : Fin 128) :
    wordAt (tbl m) j = clampWords (m (((0 : Dev nD) : Thread nD τ).loc main_arg1)) (ix1 j) :=
  congrFun (V_main_v0 m 0) (ix1 j)

/-- The pipeline's side condition holds of the table at the launch, whatever the routing words are. -/
theorem ok : ok0 (F := F) (tbl m) :=
  ok_of_words_lt (tbl m) fun j => by rw [wordAt_tbl]; exact clampWords_lt _ _

end Cert.KernelIdeal.Hand

end
-- ==== Proof.Body.lean ====
/-
  One grid point of the kernel, run once on arbitrary staging buffers.

  The body reads its two samples' blocks (the two halves of a 2 x 270 x 2048 buffer), the two experts'
  matrices and bias columns, and writes each sample's result into its half of the output buffer. It
  also loads each half of the output buffer before storing into it; nothing is done with what those
  loads read, so the output buffer may hold anything when the body starts. Every input buffer is
  handed back as it was; the output buffer ends as whatever it held overwritten by the two stores,
  and the two stores' rectangles (rows 0 and 1 of the leading axis) tile the buffer, so nothing of the
  earlier contents survives.
-/
import proofs.«429278_j10419590660547_3_alg».proof.Proof.Gen.KernelIdeal.Launch
import proofs.«429278_j10419590660547_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the output buffer, as pieces (last first), with the proof that from whole
    buffers — the five inputs at their contents, the output at anything — the body runs to the
    continuation holding the inputs as they were and the output with those pieces written. -/
noncomputable def bodyRun (c : Dev nD) (i : grid0.Coords)
    (arg1 : Memref sig .tc .smem S128 .i32) (harg1 : arg1.IsWhole)
    (arg2 : Memref sig .tc .vmem S2x270x2048 .f32) (harg2 : arg2.IsWhole)
    (arg3 : Memref sig .tc .vmem S1x270x270 .f32) (harg3 : arg3.IsWhole)
    (arg4 : Memref sig .tc .vmem S1x270x270 .f32) (harg4 : arg4.IsWhole)
    (arg5 : Memref sig .tc .vmem S1x270x1 .f32) (harg5 : arg5.IsWhole)
    (arg6 : Memref sig .tc .vmem S1x270x1 .f32) (harg6 : arg6.IsWhole)
    (arg7 : Memref sig .tc .vmem S2x270x2048 .f32) (harg7 : arg7.IsWhole)
    (x : Vec F S2x270x2048 .f32) (w0 w1 : Vec F S1x270x270 .f32) (b0 b1 : Vec F S1x270x1 .f32) :
    { L : List (View.Piece (Elt F) S2x270x2048 .f32) //
      ∀ (E : Set ℕ) (K : PUnit → sProp 𝕄),
        iprop(owns (c : Thread nD τ) arg2 fullShare x ∗ owns (c : Thread nD τ) arg3 fullShare w0
            ∗ owns (c : Thread nD τ) arg4 fullShare w1 ∗ owns (c : Thread nD τ) arg5 fullShare b0
            ∗ owns (c : Thread nD τ) arg6 fullShare b1 ∗ (∃ d, owns (c : Thread nD τ) arg7 fullShare d)
            ∗ (iprop(owns (c : Thread nD τ) arg2 fullShare x ∗ owns (c : Thread nD τ) arg3 fullShare w0
                ∗ owns (c : Thread nD τ) arg4 fullShare w1 ∗ owns (c : Thread nD τ) arg5 fullShare b0
                ∗ owns (c : Thread nD τ) arg6 fullShare b1
                ∗ (∃ f, arg7.view.loc (c : Thread nD τ) ↦[arg7.view.set]{fullShare} arg7.view.writes (Elt F) f L)) -∗ K ⟨⟩))
          ⊢ wp frame (wpE (defs₀ (F := F)) Variants.none c none) E
              (cc0__moe_kernel i arg1 harg1 arg2 harg2 arg3 harg3 arg4 harg4 arg5 harg5 arg6 harg6 arg7 harg7) K } := by
  refine ⟨?_, fun E K => ?run⟩
  case run =>
    simp only [cc0__moe_kernel_eq_skeleton]; unfold cc0__moe_kernel_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf2; obtain rfl := harg3.eq_unread hf3; obtain rfl := harg4.eq_unread hf4
    obtain rfl := harg5.eq_unread hf5; obtain rfl := harg6.eq_unread hf6
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact H7

end Cert.KernelIdeal.Hand

end
-- ==== Proof.Data.lean ====
/-
  The pipeline's proof data at the table the launch finds.

  At grid point `t` (of 64) the pipeline hands the body: the pair of samples `2t, 2t+1` (window 0, a block
  of 2 x 270 x 2048 of `x`), the matrices of the experts named by table words `2t` and `2t+1` (windows 1 and
  2, blocks of ONE array, `W`), their bias columns (windows 3 and 4, blocks of ONE array, the bias table with
  a trailing unit axis), and an output buffer (window 5) that it writes back as block `t` of the result.

  The data say: every input buffer holds its array's block at the point, whether it was fetched there or kept
  from the point before (a window is re-fetched only when its block index moves; kept, it still holds the block
  of that same index); the output buffer holds, after the body, the two stores' contents over the point's
  input blocks. Two windows read `W` and two read the bias table, so each of those arrays is held as two
  half shares, one per window; the samples' array and the result are held whole. The body needs nothing
  between points beyond the buffers the pipeline hands it, so the invariant is only the core's scoped
  buffers the pipeline does not stage.
-/
import proofs.«429278_j10419590660547_3_alg».proof.Proof.Host
import proofs.«429278_j10419590660547_3_alg».proof.Proof.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The pipeline at the table the launch finds -/

/-- The table's contents at the launch as ADMISSIBLE contents (the side condition holds of them), and the
    pipeline at them. -/
abbrev adm : (pcfg0 (F := F)).Adm := ⟨tbl m, ok m⟩
abbrev cfgM : Pipeline.Cfg sig Λ₀ := cfg0 (adm m)

/-! ## What the body leaves in the output buffer -/

/-- The body's two stores tile the output buffer (rows 0 and 1 of its leading axis), so they cover it. -/
theorem cover (c : Dev nD) (i : grid0.Coords)
    (arg1 : Memref sig .tc .smem S128 .i32) (harg1 : arg1.IsWhole)
    (arg2 : Memref sig .tc .vmem S2x270x2048 .f32) (harg2 : arg2.IsWhole)
    (arg3 : Memref sig .tc .vmem S1x270x270 .f32) (harg3 : arg3.IsWhole)
    (arg4 : Memref sig .tc .vmem S1x270x270 .f32) (harg4 : arg4.IsWhole)
    (arg5 : Memref sig .tc .vmem S1x270x1 .f32) (harg5 : arg5.IsWhole)
    (arg6 : Memref sig .tc .vmem S1x270x1 .f32) (harg6 : arg6.IsWhole)
    (arg7 : Memref sig .tc .vmem S2x270x2048 .f32) (harg7 : arg7.IsWhole)
    (x : Vec F S2x270x2048 .f32) (w0 w1 : Vec F S1x270x270 .f32) (b0 b1 : Vec F S1x270x1 .f32) (y : S2x270x2048.Idx) :
    ∃ pc ∈ (bodyRun c i arg1 harg1 arg2 harg2 arg3 harg3 arg4 harg4 arg5 harg5 arg6 harg6 arg7 harg7 x w0 w1 b0 b1).1, y ∈ pc.1.set :=
  View.cover_of_tiledL (bodyRun c i arg1 harg1 arg2 harg2 arg3 harg3 arg4 harg4 arg5 harg5 arg6 harg6 arg7 harg7 x w0 w1 b0 b1).1
    S1x270x2048.size (by sl_kernel_rfl) y

/-- One staging buffer of the output window, through which the stores' contents are read (since they cover
    the buffer, the choice does not matter). -/
abbrev VO : View sig .tc .vmem S2x270x2048 .f32 := (Memref.whole cc0_stg5_0 : Memref sig .tc .vmem S2x270x2048 .f32).view

/-- What the body leaves in the output buffer: its stores read back. -/
def outBlk (c : Dev nD) (i : grid0.Coords)
    (arg1 : Memref sig .tc .smem S128 .i32) (harg1 : arg1.IsWhole)
    (arg2 : Memref sig .tc .vmem S2x270x2048 .f32) (harg2 : arg2.IsWhole)
    (arg3 : Memref sig .tc .vmem S1x270x270 .f32) (harg3 : arg3.IsWhole)
    (arg4 : Memref sig .tc .vmem S1x270x270 .f32) (harg4 : arg4.IsWhole)
    (arg5 : Memref sig .tc .vmem S1x270x1 .f32) (harg5 : arg5.IsWhole)
    (arg6 : Memref sig .tc .vmem S1x270x1 .f32) (harg6 : arg6.IsWhole)
    (arg7 : Memref sig .tc .vmem S2x270x2048 .f32) (harg7 : arg7.IsWhole)
    (x : Vec F S2x270x2048 .f32) (w0 w1 : Vec F S1x270x270 .f32) (b0 b1 : Vec F S1x270x1 .f32) : Vec F S2x270x2048 .f32 :=
  VO.read (Elt F) (VO.writes (Elt F) VO.junk
    (bodyRun c i arg1 harg1 arg2 harg2 arg3 harg3 arg4 harg4 arg5 harg5 arg6 harg6 arg7 harg7 x w0 w1 b0 b1).1)

/-! ## The windows' blocks and staging buffers at a point -/

/-- Window `w`'s block at point `t`, read off its array as the launch finds it; for a window whose index map
    reads the table, the block the table's word selects. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- Each window's current staging buffer at point `t`, as the pipeline passes it to the body, and that it is a
    whole buffer. -/
abbrev ms0 (t : Fin (cfgM m).N) : Memref sig .tc .vmem S2x270x2048 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x270x270 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x270x270 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x270x1 .f32 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S1x270x1 .f32 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S2x270x2048 .f32 := spec0_5.stage ((cfgM m).slots t 5)
abbrev hs5 (t : Fin (cfgM m).N) : (ms5 m t).IsWhole := hstage0_5 (((cfgM m).slots t 5).cast nbuf0_5)

/-- The kernel body at point `t`, on what the pipeline calls it with. -/
abbrev bodyAt (t : Fin (cfgM m).N) : Prog (TpuEff nD τ sig (Elt F) Λ₀ .tc) PUnit :=
  cc0__moe_kernel (grid0.coords t) (Memref.whole main_v0) (Memref.isWhole_whole _) (ms0 m t) (hs0 m t) (ms1 m t) (hs1 m t)
    (ms2 m t) (hs2 m t) (ms3 m t) (hs3 m t) (ms4 m t) (hs4 m t) (ms5 m t) (hs5 m t)

/-- What the output buffer holds after the body at point `t`: the stores' contents over the point's input blocks. -/
def outAt (c : Dev nD) (t : Fin (cfgM m).N) : Vec F S2x270x2048 .f32 :=
  outBlk c (grid0.coords t) (Memref.whole main_v0) (Memref.isWhole_whole _) (ms0 m t) (hs0 m t) (ms1 m t) (hs1 m t)
    (ms2 m t) (hs2 m t) (ms3 m t) (hs3 m t) (ms4 m t) (hs4 m t) (ms5 m t) (hs5 m t)
    (iblk m c 0 t) (iblk m c 1 t) (iblk m c 2 t) (iblk m c 3 t) (iblk m c 4 t)

/-! ## The proof data -/

/-- The proof data of the one pipeline on core `c`. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.scopedRest (Ix := Unit) (Name := ℕ) (U := UR sig nD τ) (Lvl := ℕ) (Val := Elt F) spec0 c
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

/-- The data's arrays are the contents at the launch. -/
theorem A_eq (c : Dev nD) (w : Fin (cfgM m).W) : (dats m 0 c).A w = V m c (Pipeline.arrRef spec0 w) := by
  dsimp only [dats]

/-- What the body leaves, window by window. -/
theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = iblk m c 3 t := by dsimp only [dats]; try rfl
theorem after_4 (c : Dev nD) (t : Fin (cfgM m).N) : (dats m 0 c).after 4 t = iblk m c 4 t := by dsimp only [dats]; try rfl
theorem after_5 (c : Dev nD) (t : Fin (cfgM m).N) : (dats m 0 c).after 5 t = outAt m c t := by dsimp only [dats]; try rfl

/-- An input window's current buffer holds its block at every point, fetched there or kept: kept, the block
    index has not moved since the point that fetched it. The windows are never idle and their blocks are not
    clipped. -/
theorem before_0 (c : Dev nD) (t : Fin (cfgM m).N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfgM m).N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfgM m).N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfgM m).N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfgM m).N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-! ## The body obligation, at a generic point -/

/-- What the body is called with at point `t`: the invariant, nothing owed, and each window's current buffer at
    what it then holds. -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ owns (c : Thread nD τ) (ms4 m t) fullShare ((dats m 0 c).after 4 t)
    ∗ owns (c : Thread nD τ) (ms5 m t) fullShare ((dats m 0 c).after 5 t))

/-- The body at any point: the input buffers hold their blocks, so the run applies; the invariant passes
    through untouched; the core owes nothing throughout; the output buffer ends at the stores read back,
    because they cover it. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  unfold outAt
  unfold outBlk
  iintro ⟨HΦ, Ho, ⟨%d0, H0⟩, ⟨%d1, H1⟩, ⟨%d2, H2⟩, ⟨%d3, H3⟩, ⟨%d4, H4⟩, ⟨%d5, H5⟩⟩
  iapply ((bodyRun c (grid0.coords t) _ _ _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.Run.lean ====
/-
  The launch: from the launch memory every weakly fair execution of the program terminates, and at the end
  every array a window reads or writes holds what the proof data compute, and every other buffer what it held
  when the launch was reached.

  Two of the kernel's operands are ONE array each handed to two windows (the experts' matrices; their bias
  columns). The launch hands the pipeline each distinct array whole; the pipeline wants one holding per
  window. A whole holding of an array splits into two half holdings at the same contents, which is what
  the two windows on it take; the samples' array and the result's go to their one window whole.
-/
import proofs.«429278_j10419590660547_3_alg».proof.Proof.Data
import Idealize.ShloMosaic.Lib.Pipeline.Kit
import Idealize.ShloMosaic.Lib.Pipeline.Launch
import Idealize.ShloMosaic.Lib.Pipeline.Frame
import Idealize.ShloMosaic.Adequacy
import Idealize.ShloMosaic.Init

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the launch, one holding per window -/

/-- The distinct arrays behind the six windows. -/
theorem arrRefs_eq : Finset.univ.image (Pipeline.arrRef spec0) = insert main_arg0 (insert main_arg2 (insert main_v1 {main_v2})) := by decide

/-- At ANY contents `a` of the table, for any proof data whose entry arrays are the contents `Vc` and whose
    windows 1 to 4 hold the left and right halves: the four distinct arrays held whole split into the six
    windows' holdings. -/
theorem arrays_split_at (a : (pcfg0 (F := F)).Adm) (c : Dev nD) (dat : Dat τ (Elt F) Unit ℕ (UR sig nD τ) ℕ (cfg0 a) c)
    (Vc : (b : Ref sig .tc) → Buf (Elt F) ((c.tc : Thread nD τ).loc b))
    (hA : ∀ w, dat.A w = Vc (Pipeline.arrRef spec0 w))
    (h0 : dat.q 0 = fullShare) (h1 : dat.q 1 = fullShare.left) (h2 : dat.q 2 = fullShare.right)
    (h3 : dat.q 3 = fullShare.left) (h4 : dat.q 4 = fullShare.right) :
    (Pipeline.arrBufs (Ix := Unit) (Name := ℕ) (U := UR sig nD τ) (Lvl := ℕ) (cfg0 a).spec c Vc : sProp 𝕄)
      ⊢ dat.arrays (dat.arrAt · 0) := by
  have e : ∀ w : Fin (cfg0 a).W,
      (((cfg0 a).win w).arr.view.loc (c.tc : Thread nD τ) ↦[((cfg0 a).win w).arr.view.set]{dat.share w} dat.arrAt w 0 : sProp 𝕄)
        = ((c.tc : Thread nD τ).loc (Pipeline.arrRef spec0 w) ↦{dat.share w} Vc (Pipeline.arrRef spec0 w)) := fun w => by
    rw [(arr_whole0 w).set_eq_univ, show dat.arrAt w 0 = dat.A w from rfl, hA]
  have s0 : dat.share 0 = fullShare := by unfold Dat.share; exact (if_neg Bool.false_ne_true).trans h0
  have s1 : dat.share 1 = fullShare.left := by unfold Dat.share; exact (if_neg Bool.false_ne_true).trans h1
  have s2 : dat.share 2 = fullShare.right := by unfold Dat.share; exact (if_neg Bool.false_ne_true).trans h2
  have s3 : dat.share 3 = fullShare.left := by unfold Dat.share; exact (if_neg Bool.false_ne_true).trans h3
  have s4 : dat.share 4 = fullShare.right := by unfold Dat.share; exact (if_neg Bool.false_ne_true).trans h4
  have s5 : dat.share 5 = fullShare := by unfold Dat.share; exact if_pos rfl
  unfold Pipeline.arrBufs Dat.arrays
  rw [bigSep_congr (fun w _ => e w), bigSep_W0, s0, s1, s2, s3, s4, s5]
  rw [show Finset.univ.image (Pipeline.arrRef (cfg0 a).spec) = insert main_arg0 (insert main_arg2 (insert main_v1 {main_v2})) from arrRefs_eq,
    bigSep_insert (by decide), bigSep_insert (by decide), bigSep_insert (by decide), bigSep_singleton]
  refine (show iprop(((c.tc : Thread nD τ).loc main_arg0 ↦{fullShare} Vc main_arg0)
      ∗ ((c.tc : Thread nD τ).loc main_arg2 ↦{fullShare} Vc main_arg2)
      ∗ ((c.tc : Thread nD τ).loc main_v1 ↦{fullShare} Vc main_v1)
      ∗ ((c.tc : Thread nD τ).loc main_v2 ↦{fullShare} Vc main_v2)) ⊢ _ from ?_)
  iintro ⟨H0, H2, H1, H5⟩
  ihave H2' := (pointsTo_share (PosShare.mem_left_op_right fullShare)).1 $$ H2
  icases H2' with ⟨H2a, H2b⟩
  ihave H1' := (pointsTo_share (PosShare.mem_left_op_right fullShare)).1 $$ H1
  icases H1' with ⟨H1a, H1b⟩
  isplitl [H0]; · iexact H0
  isplitl [H2a]; · iexact H2a
  isplitl [H2b]; · iexact H2b
  isplitl [H1a]; · iexact H1a
  isplitl [H1b]; · iexact H1b
  iexact H5

/-- The split at the table the launch finds. -/
theorem arrays_split (c : Dev nD) :
    (Pipeline.arrBufs (Ix := Unit) (Name := ℕ) (U := UR sig nD τ) (Lvl := ℕ) (cfgM m).spec c (V m c) : sProp 𝕄)
      ⊢ (dats m 0 c).arrays ((dats m 0 c).arrAt · 0) :=
  arrays_split_at (adm m) c (dats m 0 c) (V m c) (A_eq m c) rfl rfl rfl rfl rfl

/-! ## The run -/

/-- The last of three holdings, the first two let go. -/
theorem sep_third (P Q R : sProp 𝕄) : iprop(P ∗ Q ∗ R) ⊢ R := by
  iintro ⟨-, -, H⟩
  iexact H

/-- A holding, beside nothing. -/
theorem emp_sep (R : sProp 𝕄) : R ⊢ iprop(emp ∗ R) := by
  iintro H
  isplitr; · iempintro
  iexact H

/-- What the run ends with: every window's array at what the data compute after all 64 points, and every buffer
    that is neither a window's array nor the table at what it held when the launch was reached. -/
def RunPost (r : PUnit × MemSt nD τ sig (Elt F)) : Prop :=
  ∀ c : Dev nD,
    (∀ w, r.2.mem (((cfgM m).spec w).arr.view.loc (c.tc : Thread nD τ)) = (dats m 0 c).arrAt w (cfgM m).N)
    ∧ ∀ b ∈ Pipeline.restRefsP sig pre0 spec0, r.2.mem ((c.tc : Thread nD τ).loc b) = V m c b

/-- At ANY contents `a` of the table: what the launch hands the kernel gives data whose invariant is the scoped
    buffers the pipeline does not stage (the table's half share and the empty first part are let go), -/
theorem hin_at (a : (pcfg0 (F := F)).Adm) (c : Dev nD) (dat : Dat τ (Elt F) Unit ℕ (UR sig nD τ) ℕ (cfg0 a) c)
    (hΦ : dat.Φ 0 = Pipeline.scopedRest (Ix := Unit) (Name := ℕ) (U := UR sig nD τ) (Lvl := ℕ) (Val := Elt F) spec0 c)
    (X Q : sProp 𝕄) :
    iprop(X ∗ Q ∗ Pipeline.scopedRest (Ix := Unit) (Name := ℕ) (U := UR sig nD τ) (Lvl := ℕ) (Val := Elt F) (cfg0 a).spec c)
      ⊢ dat.Φ 0 := by
  rw [hΦ]
  exact sep_third _ _ _

/-- and the invariant after the last point gives them back. -/
theorem hout_at (a : (pcfg0 (F := F)).Adm) (c : Dev nD) (dat : Dat τ (Elt F) Unit ℕ (UR sig nD τ) ℕ (cfg0 a) c)
    (hΦ : dat.Φ (Fin.last (cfg0 a).N) = Pipeline.scopedRest (Ix := Unit) (Name := ℕ) (U := UR sig nD τ) (Lvl := ℕ) (Val := Elt F) spec0 c) :
    dat.Φ (Fin.last (cfg0 a).N)
      ⊢ iprop(emp ∗ Pipeline.scopedRest (Ix := Unit) (Name := ℕ) (U := UR sig nD τ) (Lvl := ℕ) (Val := Elt F) (cfg0 a).spec c) := by
  rw [hΦ]
  exact emp_sep _

/-- The data's invariant, at every point. -/
theorem Phi_eq (c : Dev nD) (t : Fin ((cfgM m).N + 1)) :
    (dats m 0 c).Φ t = Pipeline.scopedRest (Ix := Unit) (Name := ℕ) (U := UR sig nD τ) (Lvl := ℕ) (Val := Elt F) spec0 c := by
  dsimp only [dats]

set_option backward.isDefEq.respectTransparency.types false in
/-- From any memory with zero counters, every weakly fair execution of the program terminates in a state
    satisfying `RunPost`. The kernel keeps no semaphore of its own and reads no table in its body, so the
    invariant is only the scoped buffers the pipeline does not stage; the buffers the launch does not route
    (the routing words, the bias table, the host's temporaries) are set aside and read back at the end. -/
theorem run_main : θ_run defs (onTc (τ := τ) (main (F := F))) (s₀ m ρ) (RunPost m) := by
  classical
  exact Pipeline.θ_run_region_noSem_pf pcfgs (fun _ => adm m) (dats m) () (cellOf_inj (fun _ => adm m)) (0 : Fin 1)
    winFacts₀0 preFacts0 emb₁ defs₀ Variants.none m ρ main
    (hbody := fun c => (body_obligation m c).loose)
    (hne := block_pos0) (harr := arr_whole0) (hstage := stage_whole0)
    (howed := fun _ _ => rfl)
    (u₀ := initOf (Pipeline.cells (Pipeline.pin pcfgs fun _ => adm m) (cellOf_inj fun _ => adm m))
      (Pipeline.launchToks (Pipeline.pin pcfgs fun _ => adm m) (cellOf_inj fun _ => adm m)))
    (hu₀ := .rfl)
    (V := V m) (hmain := hmain m Variants.none)
    (hsplit := fun c => arrays_split m c) (hpf := V_pre m)
    (X := fun _ => iprop(emp)) (Y := fun _ => iprop(emp))
    (Z := fun c => Pipeline.unscopedRestP (Ix := Unit) (Name := ℕ) (U := UR sig nD τ) (Lvl := ℕ) pre0 spec0 c (V m c))
    (hX := fun c => emp_sep _)
    (hin := fun c => hin_at (adm m) c (dats m 0 c) (Phi_eq m c 0) _ _)
    (hout := fun c => hout_at (adm m) c (dats m 0 c) (Phi_eq m c _))
    (QY := fun c s => ∀ b ∈ Pipeline.restRefsP sig pre0 spec0, s.mem ((c.tc : Thread nD τ).loc b) = V m c b)
    (hY := fun c s' => by
      iintro ⟨-, HU, HSI⟩
      unfold Pipeline.unscopedRestP
      imodintro
      iapply (pointsTo_read_all (Pipeline.restRefsP sig pre0 spec0) (fun b => (c.tc : Thread nD τ).loc b) (V m c) s')
      isplitl [HU] <;> iassumption)
    (hQ := fun s h c => ⟨(h c).1, (h c).2.2⟩)

/-! ## The frame -/

/-- The program terminates, faults nowhere, and leaves its four argument arrays as it found them: the samples and
    the experts' matrices are arrays of input windows, which the pipeline never writes; the routing words and
    the bias table bypass the launch; and no host operation before the launch writes an argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
      ((h c).2 main_arg1 (by decide : main_arg1 ∈ Pipeline.restRefsP sig pre0 spec0)).trans (V_main_arg1 m c),
      ((h c).1 1).trans (((dats m 0 c).arrAt_in 1 rfl _).trans ((A_eq m c 1).trans (V_main_arg2 m c))),
      ((h c).2 main_arg3 (by decide : main_arg3 ∈ Pipeline.restRefsP sig pre0 spec0)).trans (V_main_arg3 m c)⟩)
    (run_main m ρ)

/-- The same run, keeping what the result's array ends at. -/
theorem run_result : θ_run defs (onTc (τ := τ) (main (F := F))) ⟨m, fun _ => 0, ρ⟩ (fun r => ∀ c : Dev nD,
      r.2.mem ((c.tc : Thread nD τ).loc main_v2) = (dats m 0 c).arrAt 5 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).1 5,
      ((h c).1 0).trans (((dats m 0 c).arrAt_in 0 rfl _).trans ((A_eq m c 0).trans (V_main_arg0 m c))),
      ((h c).2 main_arg1 (by decide : main_arg1 ∈ Pipeline.restRefsP sig pre0 spec0)).trans (V_main_arg1 m c),
      ((h c).1 1).trans (((dats m 0 c).arrAt_in 1 rfl _).trans ((A_eq m c 1).trans (V_main_arg2 m c))),
      ((h c).2 main_arg3 (by decide : main_arg3 ∈ Pipeline.restRefsP sig pre0 spec0)).trans (V_main_arg3 m c)⟩)
    (run_main m ρ)

end Cert.KernelIdeal.Hand

end
-- ==== Proof.Payload.lean ====
/-
  What one grid point computes for each of its two samples, entry by entry over the extended reals.

  The body takes a sample's block `x` (1 x 270 x 2048), its expert's matrix `w` (1 x 270 x 270) and bias
  column `b` (1 x 270 x 1), drops the leading unit axes, narrows `x` and `w` to a 16-bit format (the
  identity on exact numbers), multiplies `w` by `x` into a zero accumulator, adds the bias column
  broadcast along time, and restores the leading unit axis. So entry `(0, c, t)` of the result is
  `(∑ k, w[0, c, k] * x[0, k, t]) + b[0, c, 0]`. The two samples of a point go through the same
  operations.

  The steps below: where the product's two operand indices sit (row `c` of the matrix against column
  `t` of the block, both running over the one contracted coordinate `k`), the product at an entry as
  the plain sum over `k`, the bias column read at an entry, and then the chain of the body's
  operations from the outside in.
-/
import proofs.«429278_j10419590660547_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## Where the product reads its operands

The product contracts the matrix's second axis against the block's first. At the result's entry `j` and
contraction position `q`, the matrix is read at row `j 0`, column `q`; the block at row `q`, column `j 1`. -/

/-- The matrix's row is the result's row. -/
private theorem lhs_row (j : S270x2048.Idx) (q : dot_S270x270_S270x2048_S270x2048_1_0_0_1_n_n.contr.Idx) :
    (dot_S270x270_S270x2048_S270x2048_1_0_0_1_n_n.lhsIdx j q 0).val = (j 0).val := by
  unfold DotDims.lhsIdx
  rw [dif_neg (show ¬(0 : Fin S270x270.rank) ∈ dot_S270x270_S270x2048_S270x2048_1_0_0_1_n_n.lhsBatch by decide), dif_pos (show (0 : Fin S270x270.rank) ∈ dot_S270x270_S270x2048_S270x2048_1_0_0_1_n_n.lhsNonContracting by decide)]
  rfl

/-- The matrix's column is the contraction position. -/
private theorem lhs_col (j : S270x2048.Idx) (q : dot_S270x270_S270x2048_S270x2048_1_0_0_1_n_n.contr.Idx) :
    (dot_S270x270_S270x2048_S270x2048_1_0_0_1_n_n.lhsIdx j q 1).val = (q ⟨0, by decide⟩).val :=
  dot_S270x270_S270x2048_S270x2048_1_0_0_1_n_n.lhsIdx_val_of_single rfl j q

/-- The block's row is the contraction position. -/
private theorem rhs_row (j : S270x2048.Idx) (q : dot_S270x270_S270x2048_S270x2048_1_0_0_1_n_n.contr.Idx) :
    (dot_S270x270_S270x2048_S270x2048_1_0_0_1_n_n.rhsIdx j q 0).val = (q ⟨0, by decide⟩).val :=
  dot_S270x270_S270x2048_S270x2048_1_0_0_1_n_n.rhsIdx_val_of_single rfl j q

/-- The block's column is the result's column. -/
private theorem rhs_col (j : S270x2048.Idx) (q : dot_S270x270_S270x2048_S270x2048_1_0_0_1_n_n.contr.Idx) :
    (dot_S270x270_S270x2048_S270x2048_1_0_0_1_n_n.rhsIdx j q 1).val = (j 1).val := by
  unfold DotDims.rhsIdx
  rw [dif_neg (show ¬(1 : Fin S270x2048.rank) ∈ dot_S270x270_S270x2048_S270x2048_1_0_0_1_n_n.rhsBatch by decide), dif_pos (show (1 : Fin S270x2048.rank) ∈ dot_S270x270_S270x2048_S270x2048_1_0_0_1_n_n.rhsNonContracting by decide)]
  rfl

/-! ## The product at an entry -/

/-- Into a zero accumulator, the product of a 270 x 270 matrix `a` and a 270 x 2048 block `m` at entry
`(c, t)` is `∑ k, a[c, k] * m[k, t]`: the accumulator's zero drops out, and the sum over the one-axis
contraction index is re-indexed by that axis's coordinate. -/
private theorem product_entry (a : FVec Ideal S270x270 .bf16) (m : FVec Ideal S270x2048 .bf16) (c : Fin 270) (t : Fin 2048) :
    matmul (F := Ideal) dot_S270x270_S270x2048_S270x2048_1_0_0_1_n_n none a m (constant (F := Ideal) S270x2048 .f32 0x00000000#32) (ix2 c t)
      = ∑ k : Fin 270, a (ix2 c k) * m (ix2 k t) := by
  refine (Ideal.matmul_constant_zero_apply dot_S270x270_S270x2048_S270x2048_1_0_0_1_n_n none a m (ix2 c t)).trans ?_
  rw [← Equiv.sum_comp (contrEquiv1 dot_S270x270_S270x2048_S270x2048_1_0_0_1_n_n 270 rfl rfl).symm]
  refine Finset.sum_congr rfl fun k _ => ?_
  have hk := contrEquiv1_symm_val dot_S270x270_S270x2048_S270x2048_1_0_0_1_n_n 270 rfl rfl k
  have el : dot_S270x270_S270x2048_S270x2048_1_0_0_1_n_n.lhsIdx (ix2 c t) ((contrEquiv1 dot_S270x270_S270x2048_S270x2048_1_0_0_1_n_n 270 rfl rfl).symm k) = ix2 c k := funext fun ax => Fin.ext (by
    match ax with
    | ⟨0, _⟩ => exact lhs_row _ _
    | ⟨1, _⟩ => exact (lhs_col _ _).trans hk)
  have er : dot_S270x270_S270x2048_S270x2048_1_0_0_1_n_n.rhsIdx (ix2 c t) ((contrEquiv1 dot_S270x270_S270x2048_S270x2048_1_0_0_1_n_n 270 rfl rfl).symm k) = ix2 k t := funext fun ax => Fin.ext (by
    match ax with
    | ⟨0, _⟩ => exact (rhs_row _ _).trans hk
    | ⟨1, _⟩ => exact rhs_col _ _)
  rw [el, er]

/-! ## The bias column at an entry -/

/-- A 270 x 1 column spread over 2048 columns reads, at `(c, t)`, the column's entry `c`: the row
coordinate is kept (270 is not 1) and the unit axis is read at its only position. -/
private theorem column_spread_entry (v : FVec Ideal S270x1 .f32) (c : Fin 270) (t : Fin 2048) :
    broadcastTo S270x2048 v broadcasts_S270x1_S270x2048 (ix2 c t) = v (ix2 c (0 : Fin 1)) :=
  broadcastTo_apply v broadcasts_S270x1_S270x2048 (ix2 c t) (ix2 c (0 : Fin 1)) fun ax => by
    match ax with
    | ⟨0, _⟩ => show c.val = if (270 : Nat) = 1 then 0 else c.val; rw [if_neg (by decide)]
    | ⟨1, _⟩ => show 0 = if (1 : Nat) = 1 then 0 else t.val; rw [if_pos rfl]

/-! ## The body's operations, from the outside in -/

/-- The body's value at an entry, for any sample: restore-the-unit-axis reads `(c, t)`; the sum there is
the product's entry plus the spread bias's entry; the narrowings are the identity; each dropped unit axis
is read at coordinate `0`. -/
private theorem body_entry (x : Vec Ideal S1x270x2048 .f32) (w : Vec Ideal S1x270x270 .f32) (b : Vec Ideal S1x270x1 .f32)
    (c : Fin 270) (t : Fin 2048) :
    shapeCast S1x270x2048
        (addf (F := Ideal)
          (matmul (F := Ideal) dot_S270x270_S270x2048_S270x2048_1_0_0_1_n_n none
            (truncf (F := Ideal) .bf16 (shapeCast S270x270 w shapeCasts_S1x270x270_S270x270) bitsLt_bf16_f32)
            (truncf (F := Ideal) .bf16 (shapeCast S270x2048 x shapeCasts_S1x270x2048_S270x2048) bitsLt_bf16_f32)
            (constant (F := Ideal) S270x2048 .f32 0x00000000#32))
          (broadcastTo S270x2048 (shapeCast S270x1 b shapeCasts_S1x270x1_S270x1) broadcasts_S270x1_S270x2048))
        shapeCasts_S270x2048_S1x270x2048 (ix3 (0 : Fin 1) c t)
      = (∑ k : Fin 270, w (ix3 (0 : Fin 1) c k) * x (ix3 (0 : Fin 1) k t)) + b (ix3 (0 : Fin 1) c (0 : Fin 1)) := by
  refine (shapeCast_ab_1ab_apply _ shapeCasts_S270x2048_S1x270x2048 (0 : Fin 1) c t).trans ?_
  refine (addf_apply _ _ (ix2 c t)).trans ?_
  refine congrArg₂ (· + ·) ?_ ?_
  · refine (product_entry _ _ c t).trans ?_
    refine Finset.sum_congr rfl fun k _ => ?_
    refine congrArg₂ (· * ·) ?_ ?_
    · exact (truncf_apply _ bitsLt_bf16_f32 (ix2 c k)).trans (shapeCast_1ab_ab_apply w shapeCasts_S1x270x270_S270x270 c k)
    · exact (truncf_apply _ bitsLt_bf16_f32 (ix2 k t)).trans (shapeCast_1ab_ab_apply x shapeCasts_S1x270x2048_S270x2048 k t)
  · exact (column_spread_entry _ c t).trans (shapeCast_1ab_ab_apply b shapeCasts_S1x270x1_S270x1 c (0 : Fin 1))

/-- The first sample's result at an entry. -/
theorem pay1_apply (x : Vec Ideal S1x270x2048 .f32) (w : Vec Ideal S1x270x270 .f32) (b : Vec Ideal S1x270x1 .f32)
    (c : Fin 270) (t : Fin 2048) :
    k0_pay1 (F := Ideal) x w b (ix3 (0 : Fin 1) c t)
      = (∑ k : Fin 270, w (ix3 (0 : Fin 1) c k) * x (ix3 (0 : Fin 1) k t)) + b (ix3 (0 : Fin 1) c (0 : Fin 1)) :=
  body_entry x w b c t

/-- The second sample's result at an entry: the same operations. -/
theorem pay2_apply (x : Vec Ideal S1x270x2048 .f32) (w : Vec Ideal S1x270x270 .f32) (b : Vec Ideal S1x270x1 .f32)
    (c : Fin 270) (t : Fin 2048) :
    k0_pay2 (F := Ideal) x w b (ix3 (0 : Fin 1) c t)
      = (∑ k : Fin 270, w (ix3 (0 : Fin 1) c k) * x (ix3 (0 : Fin 1) k t)) + b (ix3 (0 : Fin 1) c (0 : Fin 1)) :=
  body_entry x w b c t

end Cert.KernelIdeal.Payload

end
-- ==== Proof.OutBlk.lean ====
/-
  What a grid point leaves in its output buffer, entry by entry over the extended reals.

  The body's two stores write rows 0 and 1 of the buffer's leading axis; row `h` holds sample `h`'s result:
  its expert's matrix times the sample's block plus the expert's bias column,
  `out[h, c, t] = (∑ k, w_h[0, c, k] * x[h, k, t]) + b_h[0, c, 0]`.
  The stores' rectangles are disjoint, so reading the buffer back at an entry of row `h` reads the store
  of row `h`, whose value is the body's arithmetic on the loaded rows.

  The steps below: where each rectangle places its own indices in the buffer it cuts (row `h` of the
  two-row buffers shifts the leading coordinate by `h`; the rectangles of the matrices and bias columns
  are the whole buffer and move nothing); what a load through a rectangle reads of a buffer of known
  contents; which of the two stores an entry of each row reads back; and then the two rows.
-/
import proofs.«429278_j10419590660547_3_alg».proof.Proof.Data
import proofs.«429278_j10419590660547_3_alg».proof.Proof.Payload
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

/-! ## The rectangles of the body's loads and stores -/

/-- Row 1 of a two-row buffer: one row, from leading coordinate 1. -/
private abbrev row1 : Rect S2x270x2048 :=
  Rect.unit (s := S2x270x2048) ![1, 0, 0] S1x270x2048.size inb_S2x270x2048_S1x270x2048_1_0_0

/-- Row 0 of a two-row buffer: one row, from leading coordinate 0. -/
private abbrev row0 : Rect S2x270x2048 :=
  Rect.unit (s := S2x270x2048) ![0, 0, 0] S1x270x2048.size inb_S2x270x2048_S1x270x2048_0_0_0

/-- A matrix buffer, whole. -/
private abbrev matAll : Rect S1x270x270 :=
  Rect.unit (s := S1x270x270) ![0, 0, 0] S1x270x270.size inb_S1x270x270_S1x270x270_0_0_0

/-- A bias buffer, whole. -/
private abbrev biasAll : Rect S1x270x1 :=
  Rect.unit (s := S1x270x1) ![0, 0, 0] S1x270x1.size inb_S1x270x1_S1x270x1_0_0_0

/-! ## Where a rectangle places its indices

A unit-stride rectangle sends its own index to the buffer's index shifted by the rectangle's offsets:
coordinate `a` goes to `off a + 1 * (coordinate a)`. -/

/-- Row 1 places `(0, a, t)` at `(1, a, t)`. -/
private theorem row1_idx (a : Fin 270) (t : Fin 2048) :
    row1.idx (ix3 (0 : Fin 1) a t) = ix3 (1 : Fin 2) a t := by
  funext d
  match d with
  | ⟨0, _⟩ => exact Fin.ext rfl
  | ⟨1, _⟩ => exact Fin.ext (show (0 : Nat) + 1 * a.val = a.val by omega)
  | ⟨2, _⟩ => exact Fin.ext (show (0 : Nat) + 1 * t.val = t.val by omega)

/-- Row 0 places `(0, a, t)` at `(0, a, t)`. -/
private theorem row0_idx (a : Fin 270) (t : Fin 2048) :
    row0.idx (ix3 (0 : Fin 1) a t) = ix3 (0 : Fin 2) a t := by
  funext d
  match d with
  | ⟨0, _⟩ => exact Fin.ext rfl
  | ⟨1, _⟩ => exact Fin.ext (show (0 : Nat) + 1 * a.val = a.val by omega)
  | ⟨2, _⟩ => exact Fin.ext (show (0 : Nat) + 1 * t.val = t.val by omega)

/-- The whole matrix buffer moves nothing. -/
private theorem matAll_idx (a : Fin 270) (k : Fin 270) :
    matAll.idx (ix3 (0 : Fin 1) a k) = ix3 (0 : Fin 1) a k := by
  funext d
  match d with
  | ⟨0, _⟩ => exact Fin.ext rfl
  | ⟨1, _⟩ => exact Fin.ext (show (0 : Nat) + 1 * a.val = a.val by omega)
  | ⟨2, _⟩ => exact Fin.ext (show (0 : Nat) + 1 * k.val = k.val by omega)

/-- The whole bias buffer moves nothing. -/
private theorem biasAll_idx (a : Fin 270) :
    biasAll.idx (ix3 (0 : Fin 1) a (0 : Fin 1)) = ix3 (0 : Fin 1) a (0 : Fin 1) := by
  funext d
  match d with
  | ⟨0, _⟩ => exact Fin.ext rfl
  | ⟨1, _⟩ => exact Fin.ext (show (0 : Nat) + 1 * a.val = a.val by omega)
  | ⟨2, _⟩ => exact Fin.ext rfl

/-! ## What a load reads

A whole buffer whose contents read `X`, loaded through a rectangle, gives `X` at the places the rectangle
sends its indices to. -/

private theorem load_entry {κ : Kind} {sp : Space} {s : Shape} {e : EltTy} (m : Memref sig κ sp s e) (h : m.IsWhole)
    (X : s.Idx → Elt Ideal e) (R : Rect s) (j : R.shape.Idx) :
    m.view.readAt (Elt Ideal) R.toLoadRect (h.unread X) j = X (R.idx j) := by
  rw [View.readAt_eq_ld, h.read_unread]

/-! ## Which store an entry reads back

The stores, last first, are row 1 then row 0. An entry of row 1 lies in the last store's rectangle and reads
its value; an entry of row 0 has leading coordinate 0, below row 1's first, so it lies outside the last store's
rectangle and reads the earlier store, in whose rectangle it lies. -/

private theorem stores_row1 (P1 : row1.shape.Idx → Elt Ideal .f32) (P0 : row0.shape.Idx → Elt Ideal .f32)
    (cc : Fin 270) (tt : Fin 2048) :
    View.canon (Val := Elt Ideal) [(⟨row1, P1⟩ : View.Piece (Elt Ideal) S2x270x2048 .f32), ⟨row0, P0⟩] (ix3 (1 : Fin 2) cc tt)
      = P1 (ix3 (0 : Fin 1) cc tt) := by
  have e : ix3 (1 : Fin 2) cc tt = row1.emb (ix3 (0 : Fin 1) cc tt) := (row1_idx cc tt).symm
  rw [e]
  exact View.canon_cons_emb row1 P1 _ _

private theorem stores_row0 (P1 : row1.shape.Idx → Elt Ideal .f32) (P0 : row0.shape.Idx → Elt Ideal .f32)
    (cc : Fin 270) (tt : Fin 2048) :
    View.canon (Val := Elt Ideal) [(⟨row1, P1⟩ : View.Piece (Elt Ideal) S2x270x2048 .f32), ⟨row0, P0⟩] (ix3 (0 : Fin 2) cc tt)
      = P0 (ix3 (0 : Fin 1) cc tt) := by
  have hn : ix3 (0 : Fin 2) cc tt ∉ (⟨row1, P1⟩ : View.Piece (Elt Ideal) S2x270x2048 .f32).1.set := by
    intro h
    have h0 := ((Rect.mem_set_unit (s := S2x270x2048) (off := ![1, 0, 0]) (size := S1x270x2048.size)
      (inb := inb_S2x270x2048_S1x270x2048_1_0_0) (i := ix3 (0 : Fin 2) cc tt)).mp h ⟨0, by decide⟩).1
    exact absurd (show (1 : Nat) ≤ 0 from h0) (by omega)
  refine (View.canon_cons_of_not_mem _ _ hn).trans ?_
  have e : ix3 (0 : Fin 2) cc tt = row0.emb (ix3 (0 : Fin 1) cc tt) := (row0_idx cc tt).symm
  rw [e]
  exact View.canon_cons_emb row0 P0 _ _

/-- Row 0 of the output buffer: the first sample's result. -/
theorem outBlk_row0 (c : Dev nD) (i : grid0.Coords)
    (arg1 : Memref sig .tc .smem S128 .i32) (harg1 : arg1.IsWhole)
    (arg2 : Memref sig .tc .vmem S2x270x2048 .f32) (harg2 : arg2.IsWhole)
    (arg3 : Memref sig .tc .vmem S1x270x270 .f32) (harg3 : arg3.IsWhole)
    (arg4 : Memref sig .tc .vmem S1x270x270 .f32) (harg4 : arg4.IsWhole)
    (arg5 : Memref sig .tc .vmem S1x270x1 .f32) (harg5 : arg5.IsWhole)
    (arg6 : Memref sig .tc .vmem S1x270x1 .f32) (harg6 : arg6.IsWhole)
    (arg7 : Memref sig .tc .vmem S2x270x2048 .f32) (harg7 : arg7.IsWhole)
    (x : Vec Ideal S2x270x2048 .f32) (w0 w1 : Vec Ideal S1x270x270 .f32) (b0 b1 : Vec Ideal S1x270x1 .f32)
    (cc : Fin 270) (tt : Fin 2048) :
    outBlk (F := Ideal) c i arg1 harg1 arg2 harg2 arg3 harg3 arg4 harg4 arg5 harg5 arg6 harg6 arg7 harg7 x w0 w1 b0 b1
        (ix3 (0 : Fin 2) cc tt)
      = (∑ k : Fin 270, w0 (ix3 (0 : Fin 1) cc k) * x (ix3 (0 : Fin 2) k tt)) + b0 (ix3 (0 : Fin 1) cc (0 : Fin 1)) := by
  unfold outBlk
  rw [View.read_writes_junk_eq_canon]
  unfold bodyRun
  dsimp only
  sl_unfold_words
  refine (stores_row0 _ _ cc tt).trans ?_
  refine (Payload.pay1_apply _ _ _ cc tt).trans ?_
  refine congrArg₂ (· + ·) (Finset.sum_congr rfl fun k _ => congrArg₂ (· * ·) ?_ ?_) ?_
  · exact (load_entry arg3 harg3 w0 matAll (ix3 (0 : Fin 1) cc k)).trans (congrArg w0 (matAll_idx cc k))
  · exact (load_entry arg2 harg2 x row0 (ix3 (0 : Fin 1) k tt)).trans (congrArg x (row0_idx k tt))
  · exact (load_entry arg5 harg5 b0 biasAll (ix3 (0 : Fin 1) cc (0 : Fin 1))).trans (congrArg b0 (biasAll_idx cc))

/-- Row 1 of the output buffer: the second sample's result. -/
theorem outBlk_row1 (c : Dev nD) (i : grid0.Coords)
    (arg1 : Memref sig .tc .smem S128 .i32) (harg1 : arg1.IsWhole)
    (arg2 : Memref sig .tc .vmem S2x270x2048 .f32) (harg2 : arg2.IsWhole)
    (arg3 : Memref sig .tc .vmem S1x270x270 .f32) (harg3 : arg3.IsWhole)
    (arg4 : Memref sig .tc .vmem S1x270x270 .f32) (harg4 : arg4.IsWhole)
    (arg5 : Memref sig .tc .vmem S1x270x1 .f32) (harg5 : arg5.IsWhole)
    (arg6 : Memref sig .tc .vmem S1x270x1 .f32) (harg6 : arg6.IsWhole)
    (arg7 : Memref sig .tc .vmem S2x270x2048 .f32) (harg7 : arg7.IsWhole)
    (x : Vec Ideal S2x270x2048 .f32) (w0 w1 : Vec Ideal S1x270x270 .f32) (b0 b1 : Vec Ideal S1x270x1 .f32)
    (cc : Fin 270) (tt : Fin 2048) :
    outBlk (F := Ideal) c i arg1 harg1 arg2 harg2 arg3 harg3 arg4 harg4 arg5 harg5 arg6 harg6 arg7 harg7 x w0 w1 b0 b1
        (ix3 (1 : Fin 2) cc tt)
      = (∑ k : Fin 270, w1 (ix3 (0 : Fin 1) cc k) * x (ix3 (1 : Fin 2) k tt)) + b1 (ix3 (0 : Fin 1) cc (0 : Fin 1)) := by
  unfold outBlk
  rw [View.read_writes_junk_eq_canon]
  unfold bodyRun
  dsimp only
  sl_unfold_words
  refine (stores_row1 _ _ cc tt).trans ?_
  refine (Payload.pay2_apply _ _ _ cc tt).trans ?_
  refine congrArg₂ (· + ·) (Finset.sum_congr rfl fun k _ => congrArg₂ (· * ·) ?_ ?_) ?_
  · exact (load_entry arg4 harg4 w1 matAll (ix3 (0 : Fin 1) cc k)).trans (congrArg w1 (matAll_idx cc k))
  · exact (load_entry arg2 harg2 x row1 (ix3 (0 : Fin 1) k tt)).trans (congrArg x (row1_idx k tt))
  · exact (load_entry arg6 harg6 b1 biasAll (ix3 (0 : Fin 1) cc (0 : Fin 1))).trans (congrArg b1 (biasAll_idx cc))

end Cert.KernelIdeal.Hand

end
-- ==== Proof.Blocks.lean ====
/-
  Where each window's block sits in its array, at ANY admissible contents of the table.

  Point `t` (of 64) takes: from the samples' array and from the result's array the pair of leading rows
  `2t, 2t+1` (windows 0 and 5: blocks of 2 x 270 x 2048 at block index `t`); from the experts' matrices and from
  their bias columns the single leading row named by the table's word `2t` (windows 1 and 3) or `2t+1`
  (windows 2 and 4). A block's entry sits in the array at block index times block size plus the entry's own
  coordinate, axis by axis; the other two axes are taken whole. The result's window moves at every point,
  so it is written back at every point, and its 64 blocks tile the 128 leading rows.

  The table's contents are a variable throughout: nothing here depends on what the words are beyond their
  naming an expert.
-/
import proofs.«429278_j10419590660547_3_alg».proof.Proof.Data
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable {F : FTy → Type} [FloatOps F]

/-- A grid point is below 64. -/
theorem pt_lt (a : (pcfg0 (F := F)).Adm) (t : Fin (cfg0 a).N) : t.val < 64 := by
  have e : (cfg0 a).N = 64 := N_0
  have := t.isLt
  omega

/-! ## The index maps at a grid point

The grid has a single axis of 64 points, so the coordinate of point \`t\` is \`t\` itself. The two index maps that
read no table send \`t\` to the block index \`(t, 0, 0)\`; the four that read the table send it to
\`(word, 0, 0)\`, the word being the table's at \`2t\` or at \`2t + 1\`. -/

/-- On a grid of one axis the coordinate of the \`t\`-th point is \`t\` (checked at each of the 64 points). -/
private theorem coords0 : ∀ t : Fin grid0.N, (grid0.coords t 0).val = t.val :=
  (by decide +kernel : ∀ t : Fin grid0.N, (grid0.coords t 0).val = t.val)

/-- The samples' index map sends point \`t\` to block \`(t, 0, 0)\` (checked at each of the 64 points; no table is read). -/
private theorem index0_eq : ∀ t : Fin grid0.N, cc0_transform_0 (grid0.coords t) = ![t.val, 0, 0] :=
  (by decide +kernel : ∀ t : Fin grid0.N, cc0_transform_0 (grid0.coords t) = ![t.val, 0, 0])

/-- The result's index map sends point \`t\` to block \`(t, 0, 0)\` (likewise). -/
private theorem index5_eq : ∀ t : Fin grid0.N, cc0_transform_5 (grid0.coords t) = ![t.val, 0, 0] :=
  (by decide +kernel : ∀ t : Fin grid0.N, cc0_transform_5 (grid0.coords t) = ![t.val, 0, 0])

/-- The first matrix window's index map at point \`t\` is \`(word 2t, 0, 0)\`, at any contents of the table: the closed
    form at the point's coordinate, which is \`t\`. -/
private theorem index1_eq (pf : pre0.Contents (Elt F)) (t : Fin grid0.N) (h : 2 * t.val < 128) :
    cc0_transform_1 k0_off1_inb numel1_S1 pf (grid0.coords t) = ![(wordAt pf ⟨2 * t.val, h⟩).toNat, 0, 0] := by
  have hc : (grid0.coords t 0).val = t.val := coords0 t
  have h' : 2 * (grid0.coords t 0).val < 128 := by omega
  have hj : (⟨2 * (grid0.coords t 0).val, h'⟩ : Fin 128) = ⟨2 * t.val, h⟩ :=
    Fin.ext (by show 2 * (grid0.coords t 0).val = 2 * t.val; omega)
  rw [transform_1_eq pf (grid0.coords t) h', hj]

/-- The second matrix window's index map at point \`t\` is \`(word (2t + 1), 0, 0)\`. -/
private theorem index2_eq (pf : pre0.Contents (Elt F)) (t : Fin grid0.N) (h : 2 * t.val + 1 < 128) :
    cc0_transform_2 k0_off2_inb numel1_S1 pf (grid0.coords t) = ![(wordAt pf ⟨2 * t.val + 1, h⟩).toNat, 0, 0] := by
  have hc : (grid0.coords t 0).val = t.val := coords0 t
  have h' : 2 * (grid0.coords t 0).val + 1 < 128 := by omega
  have hj : (⟨2 * (grid0.coords t 0).val + 1, h'⟩ : Fin 128) = ⟨2 * t.val + 1, h⟩ :=
    Fin.ext (by show 2 * (grid0.coords t 0).val + 1 = 2 * t.val + 1; omega)
  rw [transform_2_eq pf (grid0.coords t) h', hj]

/-- The bias windows' index maps are the matrix windows' (the same word of the table names the expert). -/
private theorem index3_eq (pf : pre0.Contents (Elt F)) (t : Fin grid0.N) (h : 2 * t.val < 128) :
    cc0_transform_3 k0_off1_inb numel1_S1 pf (grid0.coords t) = ![(wordAt pf ⟨2 * t.val, h⟩).toNat, 0, 0] :=
  (transform_3_eq pf (grid0.coords t)).trans (index1_eq pf t h)
private theorem index4_eq (pf : pre0.Contents (Elt F)) (t : Fin grid0.N) (h : 2 * t.val + 1 < 128) :
    cc0_transform_4 k0_off2_inb numel1_S1 pf (grid0.coords t) = ![(wordAt pf ⟨2 * t.val + 1, h⟩).toNat, 0, 0] :=
  (transform_4_eq pf (grid0.coords t)).trans (index2_eq pf t h)

/-! ## Where a block's entry sits

On each axis an entry's array coordinate is the block index times the block's size there, plus the entry's own
coordinate. On the leading axis the block index is \`t\` (size 2) or a table word (size 1); on the other two the block
index is 0 and the block is the whole axis, so the coordinate is the entry's own. -/

/-- Window 0: entry \`(h, k, tt)\` of point \`t\`'s block of the samples is the array's entry \`(2t + h, k, tt)\`. -/
theorem emb0 (a : (pcfg0 (F := F)).Adm) (t : Fin (cfg0 a).N) (h : Fin 2) (k : Fin 270) (tt : Fin 2048) :
    ((((cfg0 a).win 0).blk t).view.emb (ix3 h k tt) : S128x270x2048.Idx)
      = ix3 (⟨2 * t.val + h.val, by have := pt_lt a t; have := h.isLt; omega⟩ : Fin 128) k tt := by
  have e : cc0_transform_0 (grid0.coords t) = ![t.val, 0, 0] := index0_eq t
  have e0 : cc0_transform_0 (grid0.coords t) 0 = t.val := congrFun e 0
  have e1 : cc0_transform_0 (grid0.coords t) 1 = 0 := congrFun e 1
  have e2 : cc0_transform_0 (grid0.coords t) 2 = 0 := congrFun e 2
  funext ax; apply Fin.ext
  match ax with
  | ⟨0, _⟩ =>
    show cc0_transform_0 (grid0.coords t) (0 : Fin 3) * 2 + 1 * h.val = 2 * t.val + h.val
    omega
  | ⟨1, _⟩ =>
    show cc0_transform_0 (grid0.coords t) (1 : Fin 3) * 270 + 1 * k.val = k.val
    omega
  | ⟨2, _⟩ =>
    show cc0_transform_0 (grid0.coords t) (2 : Fin 3) * 2048 + 1 * tt.val = tt.val
    omega

/-- Window 1: entry \`(0, cc, k)\` of point \`t\`'s block of the matrices is the array's entry \`(word 2t, cc, k)\`. -/
theorem emb1 (a : (pcfg0 (F := F)).Adm) (t : Fin (cfg0 a).N) (cc k : Fin 270)
    (hw : (wordAt a.1 ⟨2 * t.val, by have := pt_lt a t; omega⟩).toNat < 124) :
    ((((cfg0 a).win 1).blk t).view.emb (ix3 (0 : Fin 1) cc k) : S124x270x270.Idx)
      = ix3 (⟨(wordAt a.1 ⟨2 * t.val, by have := pt_lt a t; omega⟩).toNat, hw⟩ : Fin 124) cc k := by
  have e := index1_eq a.1 t (by have := pt_lt a t; omega)
  have e0 := congrFun e 0
  have e1 := congrFun e 1
  have e2 := congrFun e 2
  funext ax; apply Fin.ext
  match ax with
  | ⟨0, _⟩ =>
    show cc0_transform_1 k0_off1_inb numel1_S1 a.1 (grid0.coords t) (0 : Fin 3) * 1 + 1 * 0
      = (wordAt a.1 ⟨2 * t.val, _⟩).toNat
    rw [e0]; show (wordAt a.1 ⟨2 * t.val, _⟩).toNat * 1 + 1 * 0 = _; omega
  | ⟨1, _⟩ =>
    show cc0_transform_1 k0_off1_inb numel1_S1 a.1 (grid0.coords t) (1 : Fin 3) * 270 + 1 * cc.val = cc.val
    rw [e1]; show 0 * 270 + 1 * cc.val = cc.val; omega
  | ⟨2, _⟩ =>
    show cc0_transform_1 k0_off1_inb numel1_S1 a.1 (grid0.coords t) (2 : Fin 3) * 270 + 1 * k.val = k.val
    rw [e2]; show 0 * 270 + 1 * k.val = k.val; omega

/-- Window 2: the same with the word \`2t + 1\`. -/
theorem emb2 (a : (pcfg0 (F := F)).Adm) (t : Fin (cfg0 a).N) (cc k : Fin 270)
    (hw : (wordAt a.1 ⟨2 * t.val + 1, by have := pt_lt a t; omega⟩).toNat < 124) :
    ((((cfg0 a).win 2).blk t).view.emb (ix3 (0 : Fin 1) cc k) : S124x270x270.Idx)
      = ix3 (⟨(wordAt a.1 ⟨2 * t.val + 1, by have := pt_lt a t; omega⟩).toNat, hw⟩ : Fin 124) cc k := by
  have e := index2_eq a.1 t (by have := pt_lt a t; omega)
  have e0 := congrFun e 0
  have e1 := congrFun e 1
  have e2 := congrFun e 2
  funext ax; apply Fin.ext
  match ax with
  | ⟨0, _⟩ =>
    show cc0_transform_2 k0_off2_inb numel1_S1 a.1 (grid0.coords t) (0 : Fin 3) * 1 + 1 * 0
      = (wordAt a.1 ⟨2 * t.val + 1, _⟩).toNat
    rw [e0]; show (wordAt a.1 ⟨2 * t.val + 1, _⟩).toNat * 1 + 1 * 0 = _; omega
  | ⟨1, _⟩ =>
    show cc0_transform_2 k0_off2_inb numel1_S1 a.1 (grid0.coords t) (1 : Fin 3) * 270 + 1 * cc.val = cc.val
    rw [e1]; show 0 * 270 + 1 * cc.val = cc.val; omega
  | ⟨2, _⟩ =>
    show cc0_transform_2 k0_off2_inb numel1_S1 a.1 (grid0.coords t) (2 : Fin 3) * 270 + 1 * k.val = k.val
    rw [e2]; show 0 * 270 + 1 * k.val = k.val; omega

/-- Window 3: entry \`(0, cc, 0)\` of point \`t\`'s block of the bias columns is the array's entry \`(word 2t, cc, 0)\`. -/
theorem emb3 (a : (pcfg0 (F := F)).Adm) (t : Fin (cfg0 a).N) (cc : Fin 270)
    (hw : (wordAt a.1 ⟨2 * t.val, by have := pt_lt a t; omega⟩).toNat < 124) :
    ((((cfg0 a).win 3).blk t).view.emb (ix3 (0 : Fin 1) cc (0 : Fin 1)) : S124x270x1.Idx)
      = ix3 (⟨(wordAt a.1 ⟨2 * t.val, by have := pt_lt a t; omega⟩).toNat, hw⟩ : Fin 124) cc (0 : Fin 1) := by
  have e := index3_eq a.1 t (by have := pt_lt a t; omega)
  have e0 := congrFun e 0
  have e1 := congrFun e 1
  have e2 := congrFun e 2
  funext ax; apply Fin.ext
  match ax with
  | ⟨0, _⟩ =>
    show cc0_transform_3 k0_off1_inb numel1_S1 a.1 (grid0.coords t) (0 : Fin 3) * 1 + 1 * 0
      = (wordAt a.1 ⟨2 * t.val, _⟩).toNat
    rw [e0]; show (wordAt a.1 ⟨2 * t.val, _⟩).toNat * 1 + 1 * 0 = _; omega
  | ⟨1, _⟩ =>
    show cc0_transform_3 k0_off1_inb numel1_S1 a.1 (grid0.coords t) (1 : Fin 3) * 270 + 1 * cc.val = cc.val
    rw [e1]; show 0 * 270 + 1 * cc.val = cc.val; omega
  | ⟨2, _⟩ =>
    show cc0_transform_3 k0_off1_inb numel1_S1 a.1 (grid0.coords t) (2 : Fin 3) * 1 + 1 * 0 = 0
    rw [e2]; show 0 * 1 + 1 * 0 = 0; omega

/-- Window 4: the same with the word \`2t + 1\`. -/
theorem emb4 (a : (pcfg0 (F := F)).Adm) (t : Fin (cfg0 a).N) (cc : Fin 270)
    (hw : (wordAt a.1 ⟨2 * t.val + 1, by have := pt_lt a t; omega⟩).toNat < 124) :
    ((((cfg0 a).win 4).blk t).view.emb (ix3 (0 : Fin 1) cc (0 : Fin 1)) : S124x270x1.Idx)
      = ix3 (⟨(wordAt a.1 ⟨2 * t.val + 1, by have := pt_lt a t; omega⟩).toNat, hw⟩ : Fin 124) cc (0 : Fin 1) := by
  have e := index4_eq a.1 t (by have := pt_lt a t; omega)
  have e0 := congrFun e 0
  have e1 := congrFun e 1
  have e2 := congrFun e 2
  funext ax; apply Fin.ext
  match ax with
  | ⟨0, _⟩ =>
    show cc0_transform_4 k0_off2_inb numel1_S1 a.1 (grid0.coords t) (0 : Fin 3) * 1 + 1 * 0
      = (wordAt a.1 ⟨2 * t.val + 1, _⟩).toNat
    rw [e0]; show (wordAt a.1 ⟨2 * t.val + 1, _⟩).toNat * 1 + 1 * 0 = _; omega
  | ⟨1, _⟩ =>
    show cc0_transform_4 k0_off2_inb numel1_S1 a.1 (grid0.coords t) (1 : Fin 3) * 270 + 1 * cc.val = cc.val
    rw [e1]; show 0 * 270 + 1 * cc.val = cc.val; omega
  | ⟨2, _⟩ =>
    show cc0_transform_4 k0_off2_inb numel1_S1 a.1 (grid0.coords t) (2 : Fin 3) * 1 + 1 * 0 = 0
    rw [e2]; show 0 * 1 + 1 * 0 = 0; omega

/-- Window 5: entry \`(h, cc, tt)\` of point \`t\`'s block of the result is the array's entry \`(2t + h, cc, tt)\`. -/
theorem emb5 (a : (pcfg0 (F := F)).Adm) (t : Fin (cfg0 a).N) (h : Fin 2) (cc : Fin 270) (tt : Fin 2048) :
    ((((cfg0 a).win 5).blk t).view.emb (ix3 h cc tt) : S128x270x2048.Idx)
      = ix3 (⟨2 * t.val + h.val, by have := pt_lt a t; have := h.isLt; omega⟩ : Fin 128) cc tt := by
  have e : cc0_transform_5 (grid0.coords t) = ![t.val, 0, 0] := index5_eq t
  have e0 : cc0_transform_5 (grid0.coords t) 0 = t.val := congrFun e 0
  have e1 : cc0_transform_5 (grid0.coords t) 1 = 0 := congrFun e 1
  have e2 : cc0_transform_5 (grid0.coords t) 2 = 0 := congrFun e 2
  funext ax; apply Fin.ext
  match ax with
  | ⟨0, _⟩ =>
    show cc0_transform_5 (grid0.coords t) (0 : Fin 3) * 2 + 1 * h.val = 2 * t.val + h.val
    omega
  | ⟨1, _⟩ =>
    show cc0_transform_5 (grid0.coords t) (1 : Fin 3) * 270 + 1 * cc.val = cc.val
    omega
  | ⟨2, _⟩ =>
    show cc0_transform_5 (grid0.coords t) (2 : Fin 3) * 2048 + 1 * tt.val = tt.val
    omega

/-- The result's window is written back at every point, whatever the table holds (its index map reads none). -/
theorem flush5 (a : (pcfg0 (F := F)).Adm) (t : Fin (cfg0 a).N) : ((cfg0 a).win 5).flush t = true :=
  -- The block index \`(t, 0, 0)\` differs from one point to the next, and the last point always writes back; the
  -- schedule is a function of the index map alone, so it is checked at each of the 64 points with no table in sight.
  (by decide +kernel : ∀ t : Fin grid0.N, Pipeline.Window.flushOf grid0 true cc0_transform_5 t = true) t

/-- An entry of the result lies in point \`t\`'s block exactly when its leading row is \`2t\` or \`2t + 1\`. -/
theorem mem_blk5 (a : (pcfg0 (F := F)).Adm) (t : Fin (cfg0 a).N) (i : S128x270x2048.Idx) :
    i ∈ (((cfg0 a).win 5).blk t).view.set ↔ 2 * t.val ≤ (i 0).val ∧ (i 0).val < 2 * t.val + 2 := by
  -- The block is a rectangle of the whole array: an index is in it iff on every axis its coordinate is at least the
  -- block index times the block's size and less than that plus the size.
  have hm : i ∈ (((cfg0 a).win 5).blk t).view.set ↔ ∀ ax : Fin 3,
      cc0_transform_5 (grid0.coords t) ax * S2x270x2048.size ax ≤ (i ax).val
        ∧ (i ax).val < cc0_transform_5 (grid0.coords t) ax * S2x270x2048.size ax + S2x270x2048.size ax :=
    (Finset.ext_iff.mp (View.set_slice_whole main_v2 (((cfg0 a).win 5).rect t)) i).trans Rect.mem_set_unit
  refine hm.trans ?_
  have e := index5_eq t
  have e0 : cc0_transform_5 (grid0.coords t) 0 = t.val := congrFun e 0
  have e1 : cc0_transform_5 (grid0.coords t) 1 = 0 := congrFun e 1
  have e2 : cc0_transform_5 (grid0.coords t) 2 = 0 := congrFun e 2
  have hi1 : (i 1).val < 270 := (i 1).isLt
  have hi2 : (i 2).val < 2048 := (i 2).isLt
  constructor
  · -- The leading axis's condition is the statement's.
    intro H
    have b0 : cc0_transform_5 (grid0.coords t) 0 * 2 ≤ (i 0).val
        ∧ (i 0).val < cc0_transform_5 (grid0.coords t) 0 * 2 + 2 := H 0
    omega
  · -- Conversely the other two axes are taken whole: every coordinate there is in range.
    intro H ax
    match ax with
    | ⟨0, _⟩ =>
      show cc0_transform_5 (grid0.coords t) 0 * 2 ≤ (i 0).val ∧ (i 0).val < cc0_transform_5 (grid0.coords t) 0 * 2 + 2
      omega
    | ⟨1, _⟩ =>
      show cc0_transform_5 (grid0.coords t) 1 * 270 ≤ (i 1).val
        ∧ (i 1).val < cc0_transform_5 (grid0.coords t) 1 * 270 + 270
      omega
    | ⟨2, _⟩ =>
      show cc0_transform_5 (grid0.coords t) 2 * 2048 ≤ (i 2).val
        ∧ (i 2).val < cc0_transform_5 (grid0.coords t) 2 * 2048 + 2048
      omega

end Cert.KernelIdeal.Hand

end
-- ==== Proof.Spec.lean ====
/-
  The function both programs compute, stated once over the argument arrays.

  A batch of 128 samples, each a 270 x 2048 matrix x[n]; a bank of 124 experts, each a 270 x 270
  matrix W[e] and a bias vector b[e] of length 270; and a routing word s[n] per sample naming its
  expert. Sample n's result is the affine image of its matrix under its expert:

      out[n, c, t] = (sum over k < 270 of W[e(n), c, k] * x[n, k, t]) + b[e(n), c],

  with e(n) the expert the word s[n] names. The word is read as a natural number and capped at the
  last expert, 123, so that `expert` is total; for a word in the range 0 <= s[n] < 124, the only
  range this development uses it on, the cap does nothing.

  Everything is over the extended reals: the sum and products are the textbook ones, and no
  finiteness of the entries is assumed, because the two programs compute this same expression
  (same products, same order of the sum's terms up to the commutativity of addition) and no
  distributive or cancellation law is needed to join them.
-/
import Idealize.ShloMosaic.PureOps.Ideal
import Idealize.ShloMosaic.Lib.ValueIdx

noncomputable section

open scoped BigOperators

namespace Cert.Spec

open Idealize.ShloMosaic Idealize.ShloMosaic.ValueIdx

/-- The batch of samples: 128 matrices of 270 channels by 2048 time steps. -/
abbrev SX : Shape := ⟨3, ![128, 270, 2048]⟩
/-- One routing word per sample. -/
abbrev SS : Shape := ⟨1, ![128]⟩
/-- The experts' channel-mixing matrices. -/
abbrev SW : Shape := ⟨3, ![124, 270, 270]⟩
/-- The experts' bias vectors. -/
abbrev SB : Shape := ⟨2, ![124, 270]⟩

/-- The expert a routing word names: its value as a natural number, capped at the last expert. -/
def expertOf (w : BitVec 32) : Fin 124 := ⟨min w.toNat 123, by omega⟩

/-- A word in range names the expert of its own value. -/
theorem expertOf_val_of_lt {w : BitVec 32} (h : w.toNat < 124) : (expertOf w).val = w.toNat := by
  unfold expertOf; simp only; omega

/-- Sample `n`'s expert under the routing words `s`. -/
def expert (s : IVec SS 32) (n : Fin 128) : Fin 124 := expertOf (s (ix1 n))

/-- The routed affine map: `out[n, c, t] = (∑ k, W[e(n), c, k] * x[n, k, t]) + b[e(n), c]`. -/
def routed (x : FVec Ideal SX .f32) (s : IVec SS 32) (W : FVec Ideal SW .f32) (b : FVec Ideal SB .f32) :
    FVec Ideal SX .f32 :=
  fun i =>
    (∑ k : Fin 270,
        W (ix3 (expert s ⟨(i 0).val, (i 0).isLt⟩) (⟨(i 1).val, (i 1).isLt⟩ : Fin 270) k)
          * x (ix3 (⟨(i 0).val, (i 0).isLt⟩ : Fin 128) k (⟨(i 2).val, (i 2).isLt⟩ : Fin 2048)))
      + b (ix2 (expert s ⟨(i 0).val, (i 0).isLt⟩) (⟨(i 1).val, (i 1).isLt⟩ : Fin 270))

/-- The routed map at coordinates. -/
theorem routed_apply (x : FVec Ideal SX .f32) (s : IVec SS 32) (W : FVec Ideal SW .f32) (b : FVec Ideal SB .f32)
    (n : Fin 128) (c : Fin 270) (t : Fin 2048) :
    routed x s W b (ix3 n c t)
      = (∑ k : Fin 270, W (ix3 (expert s n) c k) * x (ix3 n k t)) + b (ix2 (expert s n) c) := rfl

end Cert.Spec

end
-- ==== Proof.Value.lean ====
/-
  What the kernel's program leaves in its result array, over the extended reals.

  Point `t` writes back, as rows `2t` and `2t + 1` of the result, its two samples' results: row `h` of its output
  buffer is the matrix of the expert named by table word `2t + h` times sample `2t + h`'s block, plus that
  expert's bias column. The table's word `j` is the clamped routing word `j`, the matrices and the samples are the
  argument arrays, and the bias operand is the bias table with a trailing unit axis. So what point `t` writes
  back is block `t` of ONE function of the argument arrays: the routed affine map at the CLAMPED routing
  words. The 64 blocks tile the 128 rows, every point writes its block back, and so the result array ends
  holding that function everywhere. For routing words already in `0 .. 123` the clamp does nothing and the
  function is the routed affine map itself.
-/
import proofs.«429278_j10419590660547_3_alg».proof.Proof.Run
import proofs.«429278_j10419590660547_3_alg».proof.Proof.OutBlk
import proofs.«429278_j10419590660547_3_alg».proof.Proof.Blocks
import proofs.«429278_j10419590660547_3_alg».proof.Proof.Spec
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## A window's block read at an entry, at ANY contents of the table -/

section AnyTable

variable {F : FTy → Type} [FloatOps F]

theorem read0 (a : (pcfg0 (F := F)).Adm) (t : Fin (cfg0 a).N) (X : FVec F S128x270x2048 .f32) (h : Fin 2) (k : Fin 270) (tt : Fin 2048) :
    (((cfg0 a).win 0).blk t).view.read (Elt F) X (ix3 h k tt)
      = X (ix3 (⟨2 * t.val + h.val, by have := pt_lt a t; have := h.isLt; omega⟩ : Fin 128) k tt) := by
  show X ((((cfg0 a).win 0).blk t).view.emb (ix3 h k tt)) = _
  exact congrArg X (emb0 a t h k tt)

theorem read1 (a : (pcfg0 (F := F)).Adm) (t : Fin (cfg0 a).N) (X : FVec F S124x270x270 .f32) (cc k : Fin 270)
    (hw : (wordAt a.1 ⟨2 * t.val, by have := pt_lt a t; omega⟩).toNat < 124) :
    (((cfg0 a).win 1).blk t).view.read (Elt F) X (ix3 (0 : Fin 1) cc k)
      = X (ix3 (⟨(wordAt a.1 ⟨2 * t.val, by have := pt_lt a t; omega⟩).toNat, hw⟩ : Fin 124) cc k) := by
  show X ((((cfg0 a).win 1).blk t).view.emb (ix3 (0 : Fin 1) cc k)) = _
  exact congrArg X (emb1 a t cc k hw)

theorem read2 (a : (pcfg0 (F := F)).Adm) (t : Fin (cfg0 a).N) (X : FVec F S124x270x270 .f32) (cc k : Fin 270)
    (hw : (wordAt a.1 ⟨2 * t.val + 1, by have := pt_lt a t; omega⟩).toNat < 124) :
    (((cfg0 a).win 2).blk t).view.read (Elt F) X (ix3 (0 : Fin 1) cc k)
      = X (ix3 (⟨(wordAt a.1 ⟨2 * t.val + 1, by have := pt_lt a t; omega⟩).toNat, hw⟩ : Fin 124) cc k) := by
  show X ((((cfg0 a).win 2).blk t).view.emb (ix3 (0 : Fin 1) cc k)) = _
  exact congrArg X (emb2 a t cc k hw)

theorem read3 (a : (pcfg0 (F := F)).Adm) (t : Fin (cfg0 a).N) (X : FVec F S124x270x1 .f32) (cc : Fin 270)
    (hw : (wordAt a.1 ⟨2 * t.val, by have := pt_lt a t; omega⟩).toNat < 124) :
    (((cfg0 a).win 3).blk t).view.read (Elt F) X (ix3 (0 : Fin 1) cc (0 : Fin 1))
      = X (ix3 (⟨(wordAt a.1 ⟨2 * t.val, by have := pt_lt a t; omega⟩).toNat, hw⟩ : Fin 124) cc (0 : Fin 1)) := by
  show X ((((cfg0 a).win 3).blk t).view.emb (ix3 (0 : Fin 1) cc (0 : Fin 1))) = _
  exact congrArg X (emb3 a t cc hw)

theorem read4 (a : (pcfg0 (F := F)).Adm) (t : Fin (cfg0 a).N) (X : FVec F S124x270x1 .f32) (cc : Fin 270)
    (hw : (wordAt a.1 ⟨2 * t.val + 1, by have := pt_lt a t; omega⟩).toNat < 124) :
    (((cfg0 a).win 4).blk t).view.read (Elt F) X (ix3 (0 : Fin 1) cc (0 : Fin 1))
      = X (ix3 (⟨(wordAt a.1 ⟨2 * t.val + 1, by have := pt_lt a t; omega⟩).toNat, hw⟩ : Fin 124) cc (0 : Fin 1)) := by
  show X ((((cfg0 a).win 4).blk t).view.emb (ix3 (0 : Fin 1) cc (0 : Fin 1))) = _
  exact congrArg X (emb4 a t cc hw)

theorem read5 (a : (pcfg0 (F := F)).Adm) (t : Fin (cfg0 a).N) (X : FVec F S128x270x2048 .f32) (h : Fin 2) (cc : Fin 270) (tt : Fin 2048) :
    (((cfg0 a).win 5).blk t).view.read (Elt F) X (ix3 h cc tt)
      = X (ix3 (⟨2 * t.val + h.val, by have := pt_lt a t; have := h.isLt; omega⟩ : Fin 128) cc tt) := by
  show X ((((cfg0 a).win 5).blk t).view.emb (ix3 h cc tt)) = _
  exact congrArg X (emb5 a t h cc tt)

/-- WHAT POINT `t` WRITES BACK is block `t` of `G`, for any proof data whose output buffer ends at contents `Y` that
    agree with `G` entry by entry, row `h` of the buffer against row `2t + h` of `G`. -/
theorem flushed_at (a : (pcfg0 (F := F)).Adm) (c : Dev nD) (dat : Dat τ (Elt F) Unit ℕ (UR sig nD τ) ℕ (cfg0 a) c)
    (t : Fin (cfg0 a).N) (Y : Vec F S2x270x2048 .f32) (hafter : dat.after 5 t = Y) (G : FVec F S128x270x2048 .f32)
    (hY : ∀ (h : Fin 2) (cc : Fin 270) (tt : Fin 2048),
      Y (ix3 h cc tt) = G (ix3 (⟨2 * t.val + h.val, by have := pt_lt a t; have := h.isLt; omega⟩ : Fin 128) cc tt)) :
    dat.flushed 5 t = (((cfg0 a).win 5).blk t).view.read (Elt F) G := by
  show ((cfg0 a).win 5).cut ((cfg0 a).grid.coords t) (dat.after 5 t) = _
  rw [hafter]
  have key : ∀ y : S2x270x2048.Idx, Y y = (((cfg0 a).win 5).blk t).view.read (Elt F) G y := fun y => by
    obtain ⟨h, cc, tt, rfl⟩ : ∃ (h : Fin 2) (cc : Fin 270) (tt : Fin 2048), y = ix3 h cc tt := ⟨y 0, y 1, y 2, eq_ix3 y⟩
    rw [hY]
    exact (read5 a t G h cc tt).symm
  funext y
  exact key y

/-- Every entry of the result lies in the block of the point that is half its leading row, and every point writes
    its block back. -/
theorem cover_at (a : (pcfg0 (F := F)).Adm) (i : S128x270x2048.Idx) :
    ∃ t : Fin (cfg0 a).N, ((cfg0 a).win 5).flush t = true ∧ i ∈ (((cfg0 a).win 5).blk t).view.set := by
  have hi : (i 0).val < 128 := (i 0).isLt
  have e : (cfg0 a).N = 64 := N_0
  refine ⟨⟨(i 0).val / 2, by omega⟩, flush5 a _, ?_⟩
  rw [mem_blk5]
  show 2 * ((i 0).val / 2) ≤ (i 0).val ∧ (i 0).val < 2 * ((i 0).val / 2) + 2
  omega

end AnyTable

/-! ## At the launch's table, over the extended reals -/

variable (m : (ℓ : Loc nD τ sig) → Buf (Elt Ideal) ℓ) (ρ : Dev nD → PrngReg)

/-- The argument arrays as launched, on core `c`. -/
abbrev xs (c : Dev nD) : FVec Ideal S128x270x2048 .f32 := m ((c : Thread nD τ).loc main_arg0)
abbrev ss (c : Dev nD) : IVec S128 32 := m ((c : Thread nD τ).loc main_arg1)
abbrev Ws (c : Dev nD) : FVec Ideal S124x270x270 .f32 := m ((c : Thread nD τ).loc main_arg2)
abbrev bs (c : Dev nD) : FVec Ideal S124x270 .f32 := m ((c : Thread nD τ).loc main_arg3)

/-- The kernel's result: the routed affine map at the clamped routing words. -/
def result (c : Dev nD) : FVec Ideal S128x270x2048 .f32 :=
  Cert.Spec.routed (xs m c) (clampWords (ss m c)) (Ws m c) (bs m c)

/-! ## The table's words and the experts they name -/

/-- Word `j` of the launch's table is the clamped routing word `j`, and names an expert. -/
theorem word_eq (j : Fin 128) : wordAt (tbl m) j = clampWords (ss m 0) (ix1 j) := wordAt_tbl m j
theorem word_lt (j : Fin 128) : (wordAt (tbl m) j).toNat < 124 := by
  rw [word_eq]; exact clampWords_lt _ _

/-- The expert the specification reads off the clamped words is the row the table's word selects. -/
theorem expert_eq (n : Fin 128) :
    Cert.Spec.expert (clampWords (ss m 0)) n = (⟨(wordAt (tbl m) n).toNat, word_lt m n⟩ : Fin 124) := by
  apply Fin.ext
  show (Cert.Spec.expertOf (clampWords (ss m 0) (ix1 n))).val = (wordAt (tbl m) n).toNat
  rw [Cert.Spec.expertOf_val_of_lt (clampWords_lt _ _), word_eq]

/-- The bias operand at an entry: the bias table's entry, the trailing unit axis dropped. -/
theorem bias_apply (b : FVec Ideal S124x270 .f32) (e : Fin 124) (cc : Fin 270) :
    broadcastInDim S124x270x1 ![0, 1] bcast_S124x270_S124x270x1_0_1 b (ix3 e cc (0 : Fin 1)) = b (ix2 e cc) :=
  broadcastInDim_apply _ bcast_S124x270_S124x270x1_0_1 b (ix3 e cc (0 : Fin 1)) (ix2 e cc) (fun a => match a with
    | ⟨0, _⟩ => by show e.val = if (124 : Nat) = 1 then 0 else e.val; rw [if_neg (by decide)]
    | ⟨1, _⟩ => by show cc.val = if (270 : Nat) = 1 then 0 else cc.val; rw [if_neg (by decide)])

/-! ## The input blocks of point `t`, entry by entry (the one device) -/

theorem iblk0_apply (t : Fin (cfgM m).N) (h : Fin 2) (k : Fin 270) (tt : Fin 2048) :
    iblk m 0 0 t (ix3 h k tt)
      = xs m 0 (ix3 (⟨2 * t.val + h.val, by have := pt_lt (adm m) t; have := h.isLt; omega⟩ : Fin 128) k tt) :=
  (read0 (adm m) t (V m 0 main_arg0) h k tt).trans (congrFun (V_main_arg0 m 0) _)

theorem iblk1_apply (t : Fin (cfgM m).N) (cc k : Fin 270) :
    iblk m 0 1 t (ix3 (0 : Fin 1) cc k)
      = Ws m 0 (ix3 (⟨(wordAt (tbl m) ⟨2 * t.val, by have := pt_lt (adm m) t; omega⟩).toNat, word_lt m _⟩ : Fin 124) cc k) :=
  (read1 (adm m) t (V m 0 main_arg2) cc k (word_lt m _)).trans (congrFun (V_main_arg2 m 0) _)

theorem iblk2_apply (t : Fin (cfgM m).N) (cc k : Fin 270) :
    iblk m 0 2 t (ix3 (0 : Fin 1) cc k)
      = Ws m 0 (ix3 (⟨(wordAt (tbl m) ⟨2 * t.val + 1, by have := pt_lt (adm m) t; omega⟩).toNat, word_lt m _⟩ : Fin 124) cc k) :=
  (read2 (adm m) t (V m 0 main_arg2) cc k (word_lt m _)).trans (congrFun (V_main_arg2 m 0) _)

theorem iblk3_apply (t : Fin (cfgM m).N) (cc : Fin 270) :
    iblk m 0 3 t (ix3 (0 : Fin 1) cc (0 : Fin 1))
      = bs m 0 (ix2 (⟨(wordAt (tbl m) ⟨2 * t.val, by have := pt_lt (adm m) t; omega⟩).toNat, word_lt m _⟩ : Fin 124) cc) :=
  ((read3 (adm m) t (V m 0 main_v1) cc (word_lt m _)).trans (congrFun (V_main_v1 m 0) _)).trans (bias_apply _ _ _)

theorem iblk4_apply (t : Fin (cfgM m).N) (cc : Fin 270) :
    iblk m 0 4 t (ix3 (0 : Fin 1) cc (0 : Fin 1))
      = bs m 0 (ix2 (⟨(wordAt (tbl m) ⟨2 * t.val + 1, by have := pt_lt (adm m) t; omega⟩).toNat, word_lt m _⟩ : Fin 124) cc) :=
  ((read4 (adm m) t (V m 0 main_v1) cc (word_lt m _)).trans (congrFun (V_main_v1 m 0) _)).trans (bias_apply _ _ _)

/-! ## What point `t` leaves in its output buffer is rows `2t, 2t + 1` of the result -/

theorem outAt_apply (t : Fin (cfgM m).N) (h : Fin 2) (cc : Fin 270) (tt : Fin 2048) :
    outAt m 0 t (ix3 h cc tt)
      = result m 0 (ix3 (⟨2 * t.val + h.val, by have := pt_lt (adm m) t; have := h.isLt; omega⟩ : Fin 128) cc tt) := by
  unfold outAt result
  rw [Cert.Spec.routed_apply, expert_eq]
  match h with
  | ⟨0, _⟩ =>
    refine (outBlk_row0 _ _ _ _ _ _ _ _ _ _ _ _ _ _ _ _ (iblk m 0 0 t) (iblk m 0 1 t) (iblk m 0 2 t) (iblk m 0 3 t) (iblk m 0 4 t) cc tt).trans ?_
    rw [iblk3_apply]
    refine congrArg₂ (· + ·) (Finset.sum_congr rfl fun k _ => ?_) rfl
    rw [iblk1_apply, iblk0_apply]
    rfl
  | ⟨1, _⟩ =>
    refine (outBlk_row1 _ _ _ _ _ _ _ _ _ _ _ _ _ _ _ _ (iblk m 0 0 t) (iblk m 0 1 t) (iblk m 0 2 t) (iblk m 0 3 t) (iblk m 0 4 t) cc tt).trans ?_
    rw [iblk4_apply]
    refine congrArg₂ (· + ·) (Finset.sum_congr rfl fun k _ => ?_) rfl
    rw [iblk2_apply, iblk0_apply]
    rfl

/-! ## The result array after the run -/

/-- What point `t` writes back is block `t` of the result. -/
theorem flushed_eq (c : Dev nD) (t : Fin (cfgM m).N) :
    (dats m 0 c).flushed 5 t = (((cfgM m).win 5).blk t).view.read (Elt Ideal) (result m c) := by
  obtain rfl : c = 0 := Subsingleton.elim _ _
  exact flushed_at (adm m) 0 (dats m 0 0) t (outAt m 0 t) (after_5 m 0 t) (result m 0) (outAt_apply m t)

/-- The result array ends holding the routed affine map at the clamped routing words. -/
theorem final (c : Dev nD) : (dats m 0 c).arrAt 5 (cfgM m).N = result m c :=
  (dats m 0 c).arrAt_eq_of_cover 5 (result m c) (fun t _ => flushed_eq m c t) (cover_at (adm m))

/-- For routing words that name an expert the clamp does nothing. -/
theorem result_of_range (c : Dev nD) (hs : ∀ n : S128.Idx, 0 ≤ (ss m c n).toInt ∧ (ss m c n).toInt < 124) :
    result m c = Cert.Spec.routed (xs m c) (ss m c) (Ws m c) (bs m c) := by
  unfold result
  rw [show clampWords (ss m c) = ss m c from funext fun n => clampWords_of_range _ n (hs n)]

/-- THE RUN, READ: every weakly fair execution terminates with the result array at the routed affine map of the
    argument arrays (the routing words clamped) and the argument arrays unchanged. -/
theorem run_value : θ_run defs (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (final m c), (h c).2⟩) (run_result m ρ)

end Cert.KernelIdeal.Hand

end
-- ==== Proof.RefRouted.lean ====
/-
  The reference computes the routed affine map.

  The reference gathers each sample's expert matrix and bias vector by the routing word — a word
  below zero would be wrapped by adding 124 first, and the gather itself clamps its start index into
  `0 .. 123`; for a word already in `0 .. 123` neither does anything, so sample `n` reads expert
  `s[n]` — then multiplies, per sample, the gathered matrix by the sample's matrix (a sum over the
  270 shared channels) and adds the gathered bias along the time axis. Entry by entry that is
  `Cert.Spec.routed`.
-/
import proofs.«429278_j10419590660547_3_alg».proof.Proof.Gen.ReferenceIdeal.Read
import proofs.«429278_j10419590660547_3_alg».proof.Proof.Spec
import Idealize.ShloMosaic.Lib.ValueIdx
import Idealize.ShloMosaic.Lib.Pipeline.Value
import Idealize.ShloMosaic.PureOps.Ideal.Laws

noncomputable section

open scoped BigOperators

namespace Cert.RefRouted

open Cert.ReferenceIdeal Cert.ReferenceIdeal.Gen Idealize.ShloMosaic Idealize.ShloMosaic.ValueIdx

/-- The first gather's dimension numbers: an operand `[124, 270, 270]` read at start indices `[128, 1]`. -/
private abbrev dW : GatherDims S124x270x270 S128x1 S128x270x270 :=
  gather_S124x270x270_S128x1_S128x270x270_12_0_n_n_0_1_1270270
/-- The second gather's dimension numbers: an operand `[124, 270]` read at start indices `[128, 1]`. -/
private abbrev dB : GatherDims S124x270 S128x1 S128x270 :=
  gather_S124x270_S128x1_S128x270_1_0_n_n_0_1_1270

/-- The matrix gather at `(n, c, k)`: the operand at `(e, c, k)`, with `e` the start index `idx[n, 0]` read as a
    signed integer and clamped into `0 .. 123`. Axis 0 is collapsed and is the one the start index names, so its
    coordinate is the clamped start alone; axes 1 and 2 are offset axes, not named by the start index, so their
    coordinates are the result's own. -/
private theorem gatherW_apply {α : Type} {w : Nat} (x : S124x270x270.Idx → α) (idx : IVec S128x1 w)
    (n : Fin 128) (c k : Fin 270) :
    Host.gather dW x idx (ix3 n c k)
      = x (ix3 (⟨min (idx (ix2 n 0)).toInt.toNat 123, by omega⟩ : Fin 124) c k) := by
  unfold Host.gather
  congr 1
  funext a
  refine Fin.ext ?_
  match a with
  | ⟨0, _⟩ =>
    show dW.start (ix3 n c k) idx 0 + dW.batchCoord (ix3 n c k) 0 + dW.offCoord (ix3 n c k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ dW.startIndexMap from List.mem_singleton.mpr rfl)]
    have hsi : dW.siIdx (ix3 n c k) ⟨List.idxOf (0 : Fin 3) dW.startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    rfl
  | ⟨1, _⟩ =>
    show dW.start (ix3 n c k) idx 1 + dW.batchCoord (ix3 n c k) 1 + dW.offCoord (ix3 n c k) 1 = _
    rw [GatherDims.batchCoord_eq_zero _ _ _ List.not_mem_nil]
    unfold GatherDims.start
    rw [dif_neg (show ¬ (1 : Fin 3) ∈ dW.startIndexMap by decide)]
    simp only [Nat.add_zero, Nat.zero_add]
    rfl
  | ⟨2, _⟩ =>
    show dW.start (ix3 n c k) idx 2 + dW.batchCoord (ix3 n c k) 2 + dW.offCoord (ix3 n c k) 2 = _
    rw [GatherDims.batchCoord_eq_zero _ _ _ List.not_mem_nil]
    unfold GatherDims.start
    rw [dif_neg (show ¬ (2 : Fin 3) ∈ dW.startIndexMap by decide)]
    simp only [Nat.add_zero, Nat.zero_add]
    rfl

/-- The bias gather at `(n, c)`: the operand at `(e, c)`, with `e` the start index `idx[n, 0]` read as a signed
    integer and clamped into `0 .. 123`; axis 0 collapsed and named by the start index, axis 1 an offset axis. -/
private theorem gatherB_apply {α : Type} {w : Nat} (x : S124x270.Idx → α) (idx : IVec S128x1 w)
    (n : Fin 128) (c : Fin 270) :
    Host.gather dB x idx (ix2 n c)
      = x (ix2 (⟨min (idx (ix2 n 0)).toInt.toNat 123, by omega⟩ : Fin 124) c) := by
  unfold Host.gather
  congr 1
  funext a
  refine Fin.ext ?_
  match a with
  | ⟨0, _⟩ =>
    show dB.start (ix2 n c) idx 0 + dB.batchCoord (ix2 n c) 0 + dB.offCoord (ix2 n c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ dB.startIndexMap from List.mem_singleton.mpr rfl)]
    have hsi : dB.siIdx (ix2 n c) ⟨List.idxOf (0 : Fin 2) dB.startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    rfl
  | ⟨1, _⟩ =>
    show dB.start (ix2 n c) idx 1 + dB.batchCoord (ix2 n c) 1 + dB.offCoord (ix2 n c) 1 = _
    rw [GatherDims.batchCoord_eq_zero _ _ _ List.not_mem_nil]
    unfold GatherDims.start
    rw [dif_neg (show ¬ (1 : Fin 2) ∈ dB.startIndexMap by decide)]
    simp only [Nat.add_zero, Nat.zero_add]
    rfl

/-- A word that is not negative is not wrapped: "below zero" is false of it, so the select keeps the word. -/
private theorem wrap_id (w : BitVec 32) (h : 0 ≤ w.toInt) :
    Scalar.select (IntOp.cmpi .slt w 0#32) (IntOp.addi w 124#32) w = w := by
  have h0 : IntOp.cmpi .slt w 0#32 = 0#1 := eq_zero_of_ne_one (fun h1 => by
    have h2 := IntOp.cmpi_slt.mp h1
    have h3 : (0#32 : BitVec 32).toInt = 0 := by decide
    omega)
  rw [h0, select_zero]

/-- A word whose signed value is in `0 .. 123` has that value as its unsigned one, and the clamp into `0 .. 123` and
    the cap at 123 both leave it alone. -/
private theorem clamp_id (w : BitVec 32) (h0 : 0 ≤ w.toInt) (h1 : w.toInt < 124) :
    min w.toInt.toNat 123 = min w.toNat 123 := by
  have hlt := w.isLt
  rw [BitVec.toInt_eq_toNat_cond] at h0 h1 ⊢
  split at h0 <;> omega

/-- The first gather's start index for sample `n` is the routing word `s[n]`. -/
private theorem word_v5 (s : IVec S128 32) (hs : ∀ n : S128.Idx, 0 ≤ (s n).toInt ∧ (s n).toInt < 124) (n : Fin 128) :
    Read.val_main_v5 (F := Ideal) s (ix2 n 0) = s (ix1 n) := by
  rw [Read.val_main_v5_apply, Read.val_main_v4_apply, Read.val_main_v1_apply, Read.val_main_v0_apply,
    Read.val_main_c_apply, Read.val_main_v3_apply, Read.val_main_v2_apply, Read.val_main_c_0_apply]
  have e : Read.idx_main_v5 (ix2 n 0) = ix1 n := by
    funext a; match a with | ⟨0, _⟩ => rfl
  rw [e]
  exact wrap_id _ (hs _).1

/-- The second gather's start index for sample `n` is the routing word `s[n]` too. -/
private theorem word_v12 (s : IVec S128 32) (hs : ∀ n : S128.Idx, 0 ≤ (s n).toInt ∧ (s n).toInt < 124) (n : Fin 128) :
    Read.val_main_v12 (F := Ideal) s (ix2 n 0) = s (ix1 n) := by
  rw [Read.val_main_v12_apply, Read.val_main_v11_apply, Read.val_main_v8_apply, Read.val_main_v7_apply,
    Read.val_main_c_1_apply, Read.val_main_v10_apply, Read.val_main_v9_apply, Read.val_main_c_2_apply]
  have e : Read.idx_main_v12 (ix2 n 0) = ix1 n := by
    funext a; match a with | ⟨0, _⟩ => rfl
  rw [e]
  exact wrap_id _ (hs _).1

/-- The gathered matrix at `(n, c, k)` is the named expert's entry `W[e(n), c, k]`. -/
private theorem v6_apply (s : IVec S128 32) (hs : ∀ n : S128.Idx, 0 ≤ (s n).toInt ∧ (s n).toInt < 124)
    (W : FVec Ideal S124x270x270 .f32) (n : Fin 128) (c k : Fin 270) :
    Read.val_main_v6 (F := Ideal) s W (ix3 n c k) = W (ix3 (Cert.Spec.expert s n) c k) := by
  unfold Read.val_main_v6
  refine (gatherW_apply W (Read.val_main_v5 (F := Ideal) s) n c k).trans ?_
  congr 2
  refine Fin.ext ?_
  show min (Read.val_main_v5 (F := Ideal) s (ix2 n 0)).toInt.toNat 123 = _
  rw [word_v5 s hs n]
  exact clamp_id _ (hs _).1 (hs _).2

/-- The gathered bias at `(n, c)` is the named expert's entry `b[e(n), c]`. -/
private theorem v13_apply (s : IVec S128 32) (hs : ∀ n : S128.Idx, 0 ≤ (s n).toInt ∧ (s n).toInt < 124)
    (b : FVec Ideal S124x270 .f32) (n : Fin 128) (c : Fin 270) :
    Read.val_main_v13 (F := Ideal) s b (ix2 n c) = b (ix2 (Cert.Spec.expert s n) c) := by
  unfold Read.val_main_v13
  refine (gatherB_apply b (Read.val_main_v12 (F := Ideal) s) n c).trans ?_
  congr 2
  refine Fin.ext ?_
  show min (Read.val_main_v12 (F := Ideal) s (ix2 n 0)).toInt.toNat 123 = _
  rw [word_v12 s hs n]
  exact clamp_id _ (hs _).1 (hs _).2

/-- For routing words in range, the reference's result is the routed affine map. -/
theorem ref_eq_routed (x0 : FVec Ideal S128x270x2048 .f32) (s : IVec S128 32) (W : FVec Ideal S124x270x270 .f32)
    (b : FVec Ideal S124x270 .f32) (hs : ∀ n : S128.Idx, 0 ≤ (s n).toInt ∧ (s n).toInt < 124) :
    Cert.ReferenceIdeal.Read.val_main_v17 (F := Ideal) x0 s W b = Cert.Spec.routed x0 s W b := by
  funext i
  obtain ⟨n, c, t, rfl⟩ : ∃ (n : Fin 128) (c : Fin 270) (t : Fin 2048), i = ix3 n c t :=
    ⟨i 0, i 1, i 2, eq_ix3 i⟩
  rw [Cert.Spec.routed_apply, Read.val_main_v17_apply, Read.val_main_v14_apply, Read.val_main_v16_apply,
    Read.val_main_v15_apply]
  have e15 : Read.idx_main_v15 (Read.idx_main_v16 (ix3 n c t)) = ix2 n c := by
    funext a; match a with | ⟨0, _⟩ => rfl | ⟨1, _⟩ => rfl
  rw [e15, v13_apply s hs b n c]
  show (∑ k : Fin 270, _) + _ = _
  congr 1
  refine Finset.sum_congr rfl fun k _ => ?_
  have el : Read.lidx_main_v14 (ix3 n c t) k = ix3 n c k := by
    funext a; match a with | ⟨0, _⟩ => rfl | ⟨1, _⟩ => rfl | ⟨2, _⟩ => rfl
  have er : Read.ridx_main_v14 (ix3 n c t) k = ix3 n k t := by
    funext a; match a with | ⟨0, _⟩ => rfl | ⟨1, _⟩ => rfl | ⟨2, _⟩ => rfl
  rw [el, er, v6_apply s hs W n c k]

end Cert.RefRouted

end
-- ==== Proof.PreRange.lean ====
/-
  What the precondition says of the routing words: every one of them names an expert,
  `0 ≤ s[n] < 124` as a signed number.

  The precondition is a conjunction of five facts, each "all entries of an array satisfy a test"
  folded into one bit. The last two tests are `s[n] ≥ 0` and `s[n] < 124` (signed comparisons of
  the routing words against constants); a conjunction that is 1 has both conjuncts 1, and an
  and-fold that is 1 has every entry 1. The first three facts (the float inputs are finite) are not
  used here.
-/
import proofs.«429278_j10419590660547_3_alg».proof.Proof.Gen.Pre_finite_inputs
import Idealize.ShloMosaic.Lib.ReduceAll
import Idealize.ShloMosaic.Lib.Affine
import Idealize.ShloMosaic.Lib.ValueIdx

noncomputable section

namespace Cert.PreRange

open Idealize.ShloMosaic Idealize.ShloMosaic.ValueIdx Cert.Pre_finite_inputs Cert.Pre_finite_inputs.Gen

variable {F : FTy → Type} [FloatOps F]

/-- A scalar has exactly one index: there is no coordinate on which two indices could differ. -/
private instance : Subsingleton S_.Idx := ⟨fun a b => funext fun d => d.elim0⟩

/-- Under the precondition every routing word names an expert. -/
theorem range_of_pre (x : FVec F S128x270x2048 .f32) (s : IVec S128 32) (W : FVec F S124x270x270 .f32)
    (b : FVec F S124x270 .f32) (h : Cert.Pre_finite_inputs.fn (F := F) x s W b = fun _ => 1#1) :
    ∀ n : S128.Idx, 0 ≤ (s n).toInt ∧ (s n).toInt < 124 := by
  -- the precondition is a scalar; read it at its one index and spell the chain of operations out
  have h0 := congrFun h ValueIdx.ix0
  dsimp only [Cert.Pre_finite_inputs.fn, Cert.Pre_finite_inputs.fn_part1] at h0
  -- a conjunction of bits that is 1 has both bits 1: peel the last two conjuncts off
  obtain ⟨h1, hlt⟩ := IntOp.andi_eq_one.1 h0
  obtain ⟨_, hge⟩ := IntOp.andi_eq_one.1 h1
  intro n
  -- an and-fold over the whole array that is 1 has a 1 at every entry; the entry at `n` compares
  -- `s n` with the constant, which a broadcast of a scalar reads at every index
  have hge_n : IntOp.cmpi .sge (s n) 0#32 = 1#1 := Host.reduce_andi_all _ _ _ _ _ hge n
  have hlt_n : IntOp.cmpi .slt (s n) 124#32 = 1#1 := Host.reduce_andi_all _ _ _ _ _ hlt n
  -- the signed comparisons, read as inequalities between the signed values of the words
  have e0 : (0#32 : BitVec 32).toInt = 0 := by decide
  have e124 : (124#32 : BitVec 32).toInt = 124 := by decide
  exact ⟨e0 ▸ IntOp.cmpi_sge.1 hge_n, e124 ▸ IntOp.cmpi_slt.1 hlt_n⟩

end Cert.PreRange

end
-- ==== Proof.lean ====
/-
  The certificate: the kernel's program and the reference compute the same function.

  The kernel routes each of 128 samples (a 270 x 2048 matrix) through one of 124 experts (a 270 x 270 matrix and
  a bias vector) named by a routing word: it clamps the words into `0 .. 123`, and one launch of 64 grid
  points, two samples a point, multiplies each sample by its expert's matrix and adds the expert's bias. The
  reference gathers the experts by the routing words and does the same arithmetic in one batched product. The
  claim is stated for routing words that name an expert, `0 ≤ s[n] < 124` (the precondition's last two
  conjuncts); there the kernel's clamp and the reference's index handling both leave the word alone.

  * Frames. The kernel's program, read over machine words and read over the extended reals, terminates and
    leaves its arguments alone: the launch through the pipeline's rule, with the two arrays that feed two windows
    each held as half shares (Run, BitsRun). The reference is straight-line host code: its run, read back.
  * Nothing was rewritten in idealizing the kernel, so there is nothing to preserve.
  * Values. The kernel's result array ends at the routed affine map of the clamped words (Value); the reference's
    result is the routed affine map (RefRouted); for words in range the two agree (`result_of_range`). Both sides
    are the same sums of the same products, so no law of the extended reals beyond reflexivity is used and the
    finiteness conjuncts of the precondition are not needed.
-/
import proofs.«429278_j10419590660547_3_alg».proof.Defs
import proofs.«429278_j10419590660547_3_alg».proof.Proof.Gen.Kernel
import proofs.«429278_j10419590660547_3_alg».proof.Proof.Gen.KernelIdeal
import proofs.«429278_j10419590660547_3_alg».proof.Proof.Gen.ReferenceIdeal
import proofs.«429278_j10419590660547_3_alg».proof.Proof.Gen.ReferenceIdeal.Run
import proofs.«429278_j10419590660547_3_alg».proof.Proof.Gen.ReferenceIdeal.Read
import proofs.«429278_j10419590660547_3_alg».proof.Proof.Gen.Pre_finite_inputs
import proofs.«429278_j10419590660547_3_alg».proof.Proof.BitsRun
import proofs.«429278_j10419590660547_3_alg».proof.Proof.Value
import proofs.«429278_j10419590660547_3_alg».proof.Proof.RefRouted
import proofs.«429278_j10419590660547_3_alg».proof.Proof.PreRange
import Idealize.ShloMosaic.Adequacy
import Idealize.ShloMosaic.Init

noncomputable section

namespace Cert.Proof

open Idealize.ShloMosaic Idealize.ShloMosaic.TcCoe Idealize.SL.Sem

/-- The kernel's program over machine words runs and leaves its arguments alone. -/
theorem frame_k : Cert.frame_Kernel (hKernel := Cert.Kernel.Gen.facts) (hPre_finite_inputs := Cert.Pre_finite_inputs.Gen.facts) :=
  fun m ρ _ => Cert.Kernel.Hand.frame m ρ

/-- The same program over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference is host code with no launch: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Under the precondition, both programs end with the routed affine map of the arguments in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hs : ∀ c : Dev Cert.KernelIdeal.nD, ∀ n, 0 ≤ (Cert.KernelIdeal.Hand.ss m c n).toInt ∧ (Cert.KernelIdeal.Hand.ss m c n).toInt < 124 :=
    fun c => Cert.PreRange.range_of_pre _ _ _ _ (hpre c)
  refine ⟨fun c => Cert.KernelIdeal.Hand.result m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  refine (Cert.ReferenceIdeal.Read.val_main_v17_eq _ _ _ _).trans ?_
  refine (Cert.RefRouted.ref_eq_routed _ _ _ _ (hs c)).trans ?_
  exact (Cert.KernelIdeal.Hand.result_of_range m c (hs c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
